-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x32 : Shape := ⟨3, ![1024, 1024, 32]⟩
abbrev S2048x512x64 : Shape := ⟨3, ![2048, 512, 64]⟩
abbrev S128x1024 : Shape := ⟨2, ![128, 1024]⟩
abbrev S2048x64 : Shape := ⟨2, ![2048, 64]⟩
abbrev S128x256 : Shape := ⟨2, ![128, 256]⟩
abbrev S1024 : Shape := ⟨1, ![1024]⟩
abbrev S_ : Shape := ⟨0, ![]⟩

class Facts : Prop where
  bcast_S_S1024x1024x32 : S_.BroadcastsInDim S1024x1024x32 (![] : Fin 0 → Fin S1024x1024x32.rank)
  reducesTo_S1024x1024x32_S_d0_1_2 : S1024x1024x32.ReducesTo [0, 1, 2] S_
  h_S_ : 0 < S_.numel
  bcast_S_S2048x512x64 : S_.BroadcastsInDim S2048x512x64 (![] : Fin 0 → Fin S2048x512x64.rank)
  reducesTo_S2048x512x64_S_d0_1_2 : S2048x512x64.ReducesTo [0, 1, 2] S_
  bcast_S_S128x1024 : S_.BroadcastsInDim S128x1024 (![] : Fin 0 → Fin S128x1024.rank)
  reducesTo_S128x1024_S_d0_1 : S128x1024.ReducesTo [0, 1] S_
  bcast_S_S2048x64 : S_.BroadcastsInDim S2048x64 (![] : Fin 0 → Fin S2048x64.rank)
  reducesTo_S2048x64_S_d0_1 : S2048x64.ReducesTo [0, 1] S_
  bcast_S_S128x256 : S_.BroadcastsInDim S128x256 (![] : Fin 0 → Fin S128x256.rank)
  reducesTo_S128x256_S_d0_1 : S128x256.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S128x256 .f32) (main_arg5 : IVec S1024 32) (main_v13 : IVec S_ 1) (main_v16 : IVec S2048x64 1) : IVec S_ 1 :=
  let main_c_5 : IVec S_ 1 := constantI S_ 1 1#1
  let main_v17 : IVec S_ 1 := (fun x v => Host.reduce IntOp.andi x v reducesTo_S2048x64_S_d0_1 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_c_8 : IVec S_ 32 := constantI S_ 32 0#32
  let main_v24 : IVec S1024 32 := broadcastInDim S1024 ![] bcast_S_S1024 main_c_8
  let main_v25 : IVec S1024 1 := cmpi .sge main_arg5 main_v24
  let main_c_9 : IVec S_ 32 := constantI S_ 32 256#32
  let main_v26 : IVec S1024 32 := broadcastInDim S1024 ![] bcast_S_S1024 main_c_9
  let main_v27 : IVec S1024 1 := cmpi .slt main_arg5 main_v26
  let main_v28 : IVec S1024 1 := andi main_v25 main_v27
  let main_c_10 : IVec S_ 1 := constantI S_ 1 1#1
  let main_v29 : IVec S_ 1 := (fun x v => Host.reduce IntOp.andi x v reducesTo_S1024_S_d0 h_S_) main_v28 main_c_10
  let main_v30 : IVec S_ 1 := andi main_v23 main_v29
  main_v30

def fn {F : FTy → Type} [FloatOps F] (main_arg0 : FVec F S1024x1024x32 .f32) (main_arg1 : FVec F S2048x512x64 .f32) (main_arg2 : FVec F S128x1024 .f32) (main_arg3 : FVec F S2048x64 .f32) (main_arg4 : FVec F S128x256 .f32) (main_arg5 : IVec S1024 32) : IVec S_ 1 :=
  let main_v0 : FVec F S1024x1024x32 .f32 := Host.absf main_arg0
  let main_cst : FVec F S_ .f32 := constant S_ .f32 0x7F800000#32
  let main_v1 : FVec F S1024x1024x32 .f32 := broadcastInDim S1024x1024x32 ![] bcast_S_S1024x1024x32 main_cst
  let main_v2 : IVec S1024x1024x32 1 := cmpf .olt main_v0 main_v1
  let main_c : IVec S_ 1 := constantI S_ 1 1#1
  let main_v3 : IVec S_ 1 := (fun x v => Host.reduce IntOp.andi x v reducesTo_S1024x1024x32_S_d0_1_2 h_S_) main_v2 main_c
  let main_v4 : FVec F S2048x512x64 .f32 := Host.absf main_arg1
  let main_cst_0 : FVec F S_ .f32 := constant S_ .f32 0x7F800000#32
  let main_v5 : FVec F S2048x512x64 .f32 := broadcastInDim S2048x512x64 ![] bcast_S_S2048x512x64 main_cst_0
  let main_v6 : IVec S2048x512x64 1 := cmpf .olt main_v4 main_v5
  let main_c_1 : IVec S_ 1 := constantI S_ 1 1#1
  let main_v7 : IVec S_ 1 := (fun x v => Host.reduce IntOp.andi x v reducesTo_S2048x512x64_S_d0_1_2 h_S_) main_v6 main_c_1
  let main_v8 : IVec S_ 1 := andi main_v3 main_v7
  let main_v9 : FVec F S128x1024 .f32 := Host.absf main_arg2
  let main_cst_2 : FVec F S_ .f32 := constant S_ .f32 0x7F800000#32
  let main_v10 : FVec F S128x1024 .f32 := broadcastInDim S128x1024 ![] bcast_S_S128x1024 main_cst_2
  let main_v11 : IVec S128x1024 1 := cmpf .olt main_v9 main_v10
  let main_c_3 : IVec S_ 1 := constantI S_ 1 1#1
  let main_v12 : IVec S_ 1 := (fun x v => Host.reduce IntOp.andi x v reducesTo_S128x1024_S_d0_1 h_S_) main_v11 main_c_3
  let main_v13 : IVec S_ 1 := andi main_v8 main_v12
  let main_v14 : FVec F S2048x64 .f32 := Host.absf main_arg3
  let main_cst_4 : FVec F S_ .f32 := constant S_ .f32 0x7F800000#32
  let main_v15 : FVec F S2048x64 .f32 := broadcastInDim S2048x64 ![] bcast_S_S2048x64 main_cst_4
  let main_v16 : IVec S2048x64 1 := cmpf .olt main_v14 main_v15
  fn_part1 (F := F) main_arg4 main_arg5 main_v13 main_v16
-- ==== Kernel.lean ====
abbrev S1024x1024x32 : Shape := ⟨3, ![1024, 1024, 32]⟩
abbrev S2048x512x64 : Shape := ⟨3, ![2048, 512, 64]⟩
abbrev S128x1024 : Shape := ⟨2, ![128, 1024]⟩
abbrev S2048x64 : Shape := ⟨2, ![2048, 64]⟩
abbrev S128x256 : Shape := ⟨2, ![128, 256]⟩
abbrev S1024 : Shape := ⟨1, ![1024]⟩
abbrev S1024x1024 : Shape := ⟨2, ![1024, 1024]⟩
abbrev S128x256x32 : Shape := ⟨3, ![128, 256, 32]⟩
abbrev S64x512x64 : Shape := ⟨3, ![64, 512, 64]⟩
abbrev S64x64 : Shape := ⟨2, ![64, 64]⟩
abbrev S_ : Shape := ⟨0, ![]⟩
abbrev S1024x1 : Shape := ⟨2, ![1024, 1]⟩
abbrev S1 : Shape := ⟨1, ![1]⟩
abbrev S1x1 : Shape := ⟨2, ![1, 1]⟩

abbrev nBuf : Space → Nat
  | .hbm => 46
  | .vmem => 8
  | .smem => 0
  | _ => 0

abbrev bufTy : (tb : Table) → Fin (tcTables nBuf tb) → BufTy
  | .hbm, ⟨0, _⟩ => ⟨S1024x1024x32, .f32⟩
  | .hbm, ⟨1, _⟩ => ⟨S2048x512x64, .f32⟩
  | .hbm, ⟨2, _⟩ => ⟨S128x1024, .f32⟩
  | .hbm, ⟨3, _⟩ => ⟨S2048x64, .f32⟩
  | .hbm, ⟨4, _⟩ => ⟨S128x256, .f32⟩
  | .hbm, ⟨5, _⟩ => ⟨S1024, .i32⟩
  | .hbm, ⟨6, _⟩ => ⟨S1024x1024, .f32⟩
  | .hbm, ⟨7, _⟩ => ⟨S2048x64, .f32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1, .i32⟩
  | .hbm, ⟨17, _⟩ => ⟨S_, .i32⟩
  | .hbm, ⟨18, _⟩ => ⟨S1024x1, .i32⟩
  | .hbm, ⟨19, _⟩ => ⟨S1024x1, .i1⟩
  | .hbm, ⟨20, _⟩ => ⟨S1x1, .i32⟩
  | .hbm, ⟨21, _⟩ => ⟨S1024x1, .i32⟩
  | .hbm, ⟨22, _⟩ => ⟨S1024x1, .i1⟩
  | .hbm, ⟨23, _⟩ => ⟨S1024x1, .i1⟩
  | .hbm, ⟨24, _⟩ => ⟨S_, .i1⟩
  | .hbm, ⟨25, _⟩ => ⟨S1024, .i1⟩
  | .hbm, ⟨26, _⟩ => ⟨S128x1024, .f32⟩
  | .hbm, ⟨27, _⟩ => ⟨S128x1024, .i1⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S1024x1024, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048x64, .f32⟩
  | .hbm, ⟨40, _⟩ => ⟨S2048x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S128x256x32, .f32⟩
  | .local _ .vmem, ⟨1, _⟩ => ⟨S128x256x32, .f32⟩
  | .local _ .vmem, ⟨2, _⟩ => ⟨S128x256, .f32⟩
  | .local _ .vmem, ⟨3, _⟩ => ⟨S128x256, .f32⟩
  | .local _ .vmem, ⟨4, _⟩ => ⟨S64x512x64, .f32⟩
  | .local _ .vmem, ⟨5, _⟩ => ⟨S64x512x64, .f32⟩
  | .local _ .vmem, ⟨6, _⟩ => ⟨S64x64, .f32⟩
  | .local _ .vmem, ⟨7, _⟩ => ⟨S64x64, .f32⟩
  | _, _ => ⟨S1024x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_cst_0 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_cst_1 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_v13 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x256x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S128x256x32_S128x256x32_0_0_0 : ∀ a, (![0, 0, 0] : Fin 3 → Nat) a + S128x256x32.size a ≤ S128x256x32.size a
  h_S128x256x32 : 0 < S128x256x32.numel
  reduces_S128x256x32_S128x256 : S128x256x32.Reduces [2] S128x256
  inb_S128x256_S128x256_0_0 : ∀ a, (![0, 0] : Fin 2 → Nat) a + S128x256.size a ≤ S128x256.size a
  h_S128x256 : 0 < S128x256.numel
  inb_S64x512x64_S64x512x64_0_0_0 : ∀ a, (![0, 0, 0] : Fin 3 → Nat) a + S64x512x64.size a ≤ S64x512x64.size a
  h_S64x512x64 : 0 < S64x512x64.numel
  reduces_S64x512x64_S64x64 : S64x512x64.Reduces [1] S64x64
  inb_S64x64_S64x64_0_0 : ∀ a, (![0, 0] : Fin 2 → Nat) a + S64x64.size a ≤ S64x64.size a
  h_S64x64 : 0 < S64x64.numel
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  reducesTo_S1024x1_S1024_d1 : S1024x1.ReducesTo [1] S1024
  h_S_ : 0 < S_.numel
  bcast_S1024_S128x1024_1 : S1024.BroadcastsInDim S128x1024 (![1] : Fin 1 → Fin S128x1024.rank)
  bcast_S_S128x1024 : S_.BroadcastsInDim S128x1024 (![] : Fin 0 → Fin S128x1024.rank)
  transposes_S1024x1024_S1024x1024_1_0 : S1024x1024.Transposes [1, 0] S1024x1024
  reducesTo_S128x1024_S_d0_1 : S128x1024.ReducesTo [0, 1] S_
  reducesTo_S2048x64_S_d0_1 : S2048x64.ReducesTo [0, 1] S_
  gather_S128x256_S1024x1_S128x1024_0_1_n_n_1_1_1281_wf : GatherDims.WF S128x256 S1024x1 S128x1024 [0] [1] [] [1] [] 1 ![128, 1]
  dot_S128x1024_S1024x1024_S128x1024_1_0_0_1_n_n_wf : DotDims.WF S128x1024 S1024x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256x32.size a ≤ S1024x1024x32.size a
  hwx0_0 : ∀ i : grid0.Coords, EltTy.bits .f32 = 32 ∨ (Rect.block (s := S1024x1024x32) S128x256x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S1024x1024.size a
  hwx0_1 : ∀ i : grid0.Coords, EltTy.bits .f32 = 32 ∨ (Rect.block (s := S1024x1024) S128x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S64x512x64.size a ≤ S2048x512x64.size a
  hwx1_0 : ∀ i : grid1.Coords, EltTy.bits .f32 = 32 ∨ (Rect.block (s := S2048x512x64) S64x512x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S2048x64.size a
  hwx1_1 : ∀ i : grid1.Coords, EltTy.bits .f32 = 32 ∨ (Rect.block (s := S2048x64) S64x64.size (cc1_transform_1 i) (hinb1_1 i)).WholeWords (EltTy.packing .f32)

variable [Facts₀]

def gather_S128x256_S1024x1_S128x1024_0_1_n_n_1_1_1281 : GatherDims S128x256 S1024x1 S128x1024 where
  offsetDims := [0]
  collapsedSliceDims := [1]
  operandBatchingDims := []
  startIndicesBatchingDims := []
  startIndexMap := [1]
  indexVectorDim := 1
  sliceSizes := ![128, 1]
  wf := gather_S128x256_S1024x1_S128x1024_0_1_n_n_1_1_1281_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf

abbrev win0_0 : Pipeline.Window sig grid0 :=
  Pipeline.Window.ofSpec (Memref.whole main_arg0) S128x256x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S64x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S64x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S1024x1024x32 : Shape := ⟨3, ![1024, 1024, 32]⟩
abbrev S2048x512x64 : Shape := ⟨3, ![2048, 512, 64]⟩
abbrev S128x1024 : Shape := ⟨2, ![128, 1024]⟩
abbrev S2048x64 : Shape := ⟨2, ![2048, 64]⟩
abbrev S128x256 : Shape := ⟨2, ![128, 256]⟩
abbrev S1024 : Shape := ⟨1, ![1024]⟩
abbrev S_ : Shape := ⟨0, ![]⟩
abbrev S1024x1024 : Shape := ⟨2, ![1024, 1024]⟩
abbrev S256x1024 : Shape := ⟨2, ![256, 1024]⟩
abbrev S1024x1 : Shape := ⟨2, ![1024, 1]⟩
abbrev S1024x256 : Shape := ⟨2, ![1024, 256]⟩

abbrev nBuf : Space → Nat
  | .hbm => 31
  | .vmem => 0
  | .smem => 0
  | _ => 0

abbrev bufTy : (tb : Table) → Fin (tcTables nBuf tb) → BufTy
  | .hbm, ⟨0, _⟩ => ⟨S1024x1024x32, .f32⟩
  | .hbm, ⟨1, _⟩ => ⟨S2048x512x64, .f32⟩
  | .hbm, ⟨2, _⟩ => ⟨S128x1024, .f32⟩
  | .hbm, ⟨3, _⟩ => ⟨S2048x64, .f32⟩
  | .hbm, ⟨4, _⟩ => ⟨S128x256, .f32⟩
  | .hbm, ⟨5, _⟩ => ⟨S1024, .i32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S256x1024, .f32⟩
  | .hbm, ⟨11, _⟩ => ⟨S1024x1, .i32⟩
  | .hbm, ⟨12, _⟩ => ⟨S256x1024, .f32⟩
  | .hbm, ⟨13, _⟩ => ⟨S1024x256, .f32⟩
  | .hbm, ⟨14, _⟩ => ⟨S256x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048x64, .f32⟩
  | .hbm, ⟨24, _⟩ => ⟨S2048x64, .f32⟩
  | .hbm, ⟨25, _⟩ => ⟨S2048x64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S1024x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  reducesTo_S1024x1024x32_S1024x1024_d2 : S1024x1024x32.ReducesTo [2] S1024x1024
  h_S_ : 0 < S_.numel
  transposes_S1024x1024_S1024x1024_1_0 : S1024x1024.Transposes [1, 0] S1024x1024
  bcast_S_S256x1024 : S_.BroadcastsInDim S256x1024 (![] : Fin 0 → Fin S256x1024.rank)
  bcast_S1024_S1024x1_0 : S1024.BroadcastsInDim S1024x1 (![0] : Fin 1 → Fin S1024x1.rank)
  transposes_S256x1024_S1024x256_1_0 : S256x1024.Transposes [1, 0] S1024x256
  transposes_S1024x256_S256x1024_1_0 : S1024x256.Transposes [1, 0] S256x1024
  reducesTo_S128x1024_S_d0_1 : S128x1024.ReducesTo [0, 1] S_
  reducesTo_S2048x512x64_S2048x64_d1 : S2048x512x64.ReducesTo [1] S2048x64
  reducesTo_S2048x64_S_d0_1 : S2048x64.ReducesTo [0, 1] S_
  scatter_S256x1024_S1024x1_S1024x1024_1_0_0_1_wf : ScatterDims.WF S256x1024 S1024x1 S1024x1024 [1] [0] [0] 1
  dot_S128x256_S256x1024_S128x1024_1_0_0_1_n_n_wf : DotDims.WF S128x256 S256x1024 S128x1024 [1] [0] [0] [1] [] []

variable [Facts₀]

def scatter_S256x1024_S1024x1_S1024x1024_1_0_0_1 : ScatterDims S256x1024 S1024x1 S1024x1024 where
  updateWindowDims := [1]
  insertedWindowDims := [0]
  scatterDimsToOperandDims := [0]
  indexVectorDim := 1
  wf := scatter_S256x1024_S1024x1_S1024x1024_1_0_0_1_wf
def dot_S128x256_S256x1024_S128x1024_1_0_0_1_n_n : DotDims S128x256 S256x1024 S128x1024 where
  lhsContracting := [1]
  rhsContracting := [0]
  lhsNonContracting := [0]
  rhsNonContracting := [1]
  lhsBatch := []
  rhsBatch := []
  wf := dot_S128x256_S256x1024_S128x1024_1_0_0_1_n_n_wf

class Facts : Prop extends Facts₀ where

variable [Facts]
-- ==== Proof.TailDefs.lean ====
/- The host side of the kernel program after its two pallas_calls, as named pure functions.

   `jnp.take(mapping, ids, axis=1)` prints as: wrap a negative id by the table's width 256, lay the ids as a column,
   gather the columns they name, and replace by a NaN fill every column whose wrapped id is outside [0, 255]. The
   gathered [128, 1024] matrix is contracted with the transposed row sums, and the two squared-error sums are scaled
   (by 1/2 and by the f32 nearest 0.45) and added. -/
import proofs.«426334_j31190052503810_2_alg».proof.Proof.Gen.KernelIdeal

noncomputable section

namespace Cert.KernelIdeal.Tail

open Cert.KernelIdeal Idealize.ShloMosaic
open Cert.KernelIdeal.Facts₀ Cert.KernelIdeal.Facts

variable {F : FTy → Type} [FloatOps F]

/-- The ids as the lookup reads them: a negative id wrapped by 256, laid as a [1024 × 1] column. -/
def takeIds (idx : IVec S1024 32) : IVec S1024x1 32 :=
  broadcastInDim S1024x1 ![0] bcast_S1024_S1024x1_0
    (select (cmpi .slt idx (broadcastInDim S1024 ![] bcast_S_S1024 (constantI S_ 32 0#32)))
      (addi idx (broadcastInDim S1024 ![] bcast_S_S1024 (constantI S_ 32 256#32))) idx)

/-- Per id: is the wrapped id inside [0, 255]? -/
def takeOk (ids : IVec S1024x1 32) : IVec S1024 1 :=
  (fun x v => Host.reduce IntOp.andi x v reducesTo_S1024x1_S1024_d1 h_S_)
    (andi (cmpi .sge ids (broadcastInDim S1024x1 ![] bcast_S_S1024x1 (constantI S_ 32 0#32)))
      (cmpi .sle ids (broadcastInDim S1024x1 ![0, 1] bcast_S1x1_S1024x1_0_1
        (broadcastInDim S1x1 ![1] bcast_S1_S1x1_1 (constantI S1 32 255#32)))))
    (constantI S_ 1 1#1)

/-- The looked-up columns: column r is the table's column at id r, or the NaN fill where the id is out of range. -/
def takeCols (mp : FVec F S128x256 .f32) (idx : IVec S1024 32) : FVec F S128x1024 .f32 :=
  select (broadcastInDim S128x1024 ![1] bcast_S1024_S128x1024_1 (takeOk (takeIds idx)))
    (Host.gather gather_S128x256_S1024x1_S128x1024_0_1_n_n_1_1_1281 mp (takeIds idx))
    (broadcastInDim S128x1024 ![] bcast_S_S128x1024 (constant S_ .f32 0x7FC00000#32))

/-- The first observation's prediction: the looked-up columns contracted with the transposed row sums. -/
def proc0 (mp : FVec F S128x256 .f32) (idx : IVec S1024 32) (S : FVec F S1024x1024 .f32) : FVec F S128x1024 .f32 :=
  Host.dotGeneral dot_S128x1024_S1024x1024_S128x1024_1_0_0_1_n_n (some .fp32) (takeCols mp idx)
    (transpose S1024x1024 [1, 0] S transposes_S1024x1024_S1024x1024_1_0)

/-- The scalar result: half the first squared error plus 0.45 (as f32) times the second. -/
def loss (obs0 p0 : FVec F S128x1024 .f32) (obs1 p1 : FVec F S2048x64 .f32) : FVec F S_ .f32 :=
  addf
    (mulf (constant S_ .f32 0x3F000000#32)
      (Host.reduceAdd (mulf (subf obs0 p0) (subf obs0 p0)) (constant S_ .f32 0x00000000#32) reducesTo_S128x1024_S_d0_1 h_S_))
    (mulf (constant S_ .f32 0x3EE66666#32)
      (Host.reduceAdd (mulf (subf obs1 p1) (subf obs1 p1)) (constant S_ .f32 0x00000000#32) reducesTo_S2048x64_S_d0_1 h_S_))

end Cert.KernelIdeal.Tail

end
-- ==== Proof.HostTailTerm.lean ====
/- The idealized kernel's result buffer as the composed host tail over the buffers at the second region's exit, and
   the arguments no region writes read back to the launch memory (at any instance). -/
import proofs.«426334_j31190052503810_2_alg».proof.Proof.Gen.KernelIdeal.Frame
import proofs.«426334_j31190052503810_2_alg».proof.Proof.TailDefs
import Idealize.ShloMosaic.Lib.StableHlo.Run

set_option maxRecDepth 16384

noncomputable section

namespace Cert.KernelIdeal.HostTail

open Cert.KernelIdeal Cert.KernelIdeal.Gen Cert.KernelIdeal.Tail
open Idealize.ShloMosaic Idealize.ShloMosaic.TcCoe Idealize.SL.Sem Idealize.ShloMosaic.StableHlo

section Generic
variable {F : FTy → Type} [FloatOps F]
variable (m : (ℓ : Loc nD τ sig) → Buf (Elt F) ℓ) (ρ : Dev nD → PrngReg)

set_option maxHeartbeats 2000000 in
/-- The result buffer after the last host stretch: the tail's operations composed, over the buffers at the second
    region's exit. -/
theorem result_eq (c : Dev nD) :
    W4 m ρ c (Proc.devRef .tc main_v13)
      = loss (W2 m ρ c (Proc.devRef .tc main_arg2))
          (proc0 (W2 m ρ c (Proc.devRef .tc main_arg4)) (W2 m ρ c (Proc.devRef .tc main_arg5)) (W2 m ρ c (Proc.devRef .tc main_v0)))
          (W2 m ρ c (Proc.devRef .tc main_arg3)) (W2 m ρ c (Proc.devRef .tc main_v1)) := by
  show StableHlo.after hostOps2_1 (StableHlo.after hostOps2 (W2 m ρ c)) (Proc.devRef .tc main_v13) = _
  after_results
  rfl

/-- An argument no region names is as launched at the second region's exit. -/
theorem W2_main_arg2 (c : Dev nD) : W2 m ρ c (Proc.devRef .tc main_arg2) = m ((c : Thread nD τ).loc main_arg2) :=
  (W2_of_ne m ρ c main_arg2 (by decide)).trans (W1_of_ne m ρ c main_arg2 (by decide))
theorem W2_main_arg3 (c : Dev nD) : W2 m ρ c (Proc.devRef .tc main_arg3) = m ((c : Thread nD τ).loc main_arg3) :=
  (W2_of_ne m ρ c main_arg3 (by decide)).trans (W1_of_ne m ρ c main_arg3 (by decide))
theorem W2_main_arg4 (c : Dev nD) : W2 m ρ c (Proc.devRef .tc main_arg4) = m ((c : Thread nD τ).loc main_arg4) :=
  (W2_of_ne m ρ c main_arg4 (by decide)).trans (W1_of_ne m ρ c main_arg4 (by decide))
theorem W2_main_arg5 (c : Dev nD) : W2 m ρ c (Proc.devRef .tc main_arg5) = m ((c : Thread nD τ).loc main_arg5) :=
  (W2_of_ne m ρ c main_arg5 (by decide)).trans (W1_of_ne m ρ c main_arg5 (by decide))

/-- The second region finds its input array as launched: the first region does not name it. -/
theorem V1_main_arg1 (c : Dev nD) : V1 m ρ c main_arg1 = m ((c : Thread nD τ).loc main_arg1) :=
  W1_of_ne m ρ c main_arg1 (by decide)

end Generic

end Cert.KernelIdeal.HostTail

end
-- ==== Proof.RowSums.lean ====
/- Region 0 of the kernel, read as a value at the ideal instance.

   The first pallas_call tiles the [1024, 1024, 32] array by blocks of [128, 256, 32] over an 8 × 4 grid and writes,
   per block, the sum over the last axis into the [128, 256] block of the [1024, 1024] result at the same two block
   coordinates. So entry (a, r) of the result array is the sum over k of the argument's entry (a, r, k): the blocks
   are restrictions of that one function, and they tile the result. -/
import proofs.«426334_j31190052503810_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.RowSums

open Cert.KernelIdeal Cert.KernelIdeal.Gen Idealize.ShloMosaic Idealize.ShloMosaic.TcCoe Idealize.SL.Sem
open Idealize.ShloMosaic.ValueIdx
open Idealize.ShloMosaic.Pipeline (Dat Cfg Window)
open scoped BigOperators

/-- Entry (a, r) is the sum over the last axis of the rank-3 array's row (a, r, ·). -/
def rowSum (x : S1024x1024x32.Idx → EReal) : S1024x1024.Idx → EReal :=
  fun j => ∑ k : Fin 32, x (ix3 (j 0) (j 1) k)

/-- The body's stored value at (p, q) of a block: the sum of the loaded block's row (p, q, ·). -/
theorem pay_apply (x0 : Vec Ideal S128x256x32 .f32) (p : Fin 128) (q : Fin 256) :
    k0_pay1 (F := Ideal) x0 (ix2 p q) = ∑ k : Fin 32, x0 (ix3 p q k) := by
  unfold k0_pay1
  refine (Ideal.multiReduction_add_single x0 _ reduces_S128x256x32_S128x256 (.inl rfl) rfl (ix2 p q)).trans ?_
  refine Finset.sum_congr rfl fun k _ => congrArg x0 ?_
  funext a
  apply Fin.ext
  match a with
  | ⟨0, _⟩ => rfl
  | ⟨1, _⟩ => rfl
  | ⟨2, _⟩ => rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The two windows' block coordinates at a grid point: the input block sits over the output block, at block 0 of
    the summed axis; decided over the 32 points. -/
theorem idx_facts : ∀ t : Fin cfg0.N, win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 7 ∧ win0_1.index t (1 : Fin 2) ≤ 3 :=
  (by decide +kernel : ∀ t : Fin grid0.N, _)

/-- Every block of the result is some point's. -/
theorem idx_onto : ∀ (q0 : Fin 8) (q1 : Fin 4), ∃ t : Fin cfg0.N, win0_1.index t = ![q0.val, q1.val] :=
  (by decide +kernel : ∀ (q0 : Fin 8) (q1 : Fin 4), ∃ t : Fin grid0.N, win0_1.index t = ![q0.val, q1.val])

variable (V : (c : Dev nD) → (b : Ref sig .tc) → Buf (Elt Ideal) ((c : Thread nD τ).loc b))

/-- The rank-3 argument array as the region finds it, at its literal type. -/
abbrev arr (c : Dev nD) : S1024x1024x32.Idx → EReal := V c main_arg0

/-- What grid point `t` writes back is block `t` of the row sums of the array the region finds. -/
theorem flushed_eq (c : Dev nD) (t : Fin cfg0.N) :
    (dat0 (F := Ideal) V c).flushed 1 t = ((cfg0.win 1).blk t).view.read (Elt Ideal) (rowSum (arr V c)) := by
  show (cfg0.win 1).cut (grid0.coords t) ((dat0 (F := Ideal) V c).after 1 t) = _
  rw [after0_1]
  unfold out0_1
  rw [View.canon_unit_zero hz2]
  simp only [View.ld_unit_zero (S := S128x256x32) hz3]
  obtain ⟨e0, e1, e2, -, -⟩ := idx_facts t
  funext y
  obtain ⟨p, q, rfl⟩ : ∃ (p : Fin 128) (q : Fin 256), y = ix2 p q := ⟨y 0, y 1, eq_ix2 y⟩
  refine (pay_apply (iblk0 V c 0 t) p q).trans ?_
  show ∑ k : Fin 32, arr V c (((cfg0.win 0).blk t).view.emb (ix3 p q k))
    = ∑ k : Fin 32, arr V c (ix3 ((((cfg0.win 1).blk t).view.emb (ix2 p q)) 0) ((((cfg0.win 1).blk t).view.emb (ix2 p q)) 1) k)
  refine Finset.sum_congr rfl fun k _ => congrArg (arr V c) ?_
  funext a
  apply Fin.ext
  match a with
  | ⟨0, _⟩ =>
    show win0_0.index t (0 : Fin 3) * 128 + 1 * p.val = win0_1.index t (0 : Fin 2) * 128 + 1 * p.val
    omega
  | ⟨1, _⟩ =>
    show win0_0.index t (1 : Fin 3) * 256 + 1 * q.val = win0_1.index t (1 : Fin 2) * 256 + 1 * q.val
    omega
  | ⟨2, _⟩ =>
    show win0_0.index t (2 : Fin 3) * 32 + 1 * k.val = k.val
    omega

/-- An index of the result array is in point `t`'s block iff each coordinate is in the block's range on its axis. -/
theorem mem_blk (t : Fin cfg0.N) (i : S1024x1024.Idx) :
    i ∈ ((cfg0.win 1).blk t).view.set ↔ ∀ a : Fin 2, win0_1.index t a * S128x256.size a ≤ (i a).val ∧ (i a).val < win0_1.index t a * S128x256.size a + S128x256.size a := by
  show i ∈ ((View.whole main_v0).slice (win0_1.rect t)).set ↔ _
  rw [View.set_slice_whole, Rect.mem_set_unit]
  exact Iff.rfl

/-- The blocks tile the result array: entry (a, r) is in the block at (a / 128, r / 256). -/
theorem cover (i : S1024x1024.Idx) :
    ∃ t : Fin cfg0.N, (cfg0.win 1).flush t = true ∧ i ∈ ((cfg0.win 1).blk t).view.set := by
  have hi0 : (i 0).val < 1024 := (i 0).isLt
  have hi1 : (i 1).val < 1024 := (i 1).isLt
  obtain ⟨t, ht⟩ := idx_onto ⟨(i 0).val / 128, by omega⟩ ⟨(i 1).val / 256, by omega⟩
  have q0 : win0_1.index t (0 : Fin 2) = (i 0).val / 128 := congrFun ht 0
  have q1 : win0_1.index t (1 : Fin 2) = (i 1).val / 256 := congrFun ht 1
  refine ⟨t, flush0_1 t, ?_⟩
  rw [mem_blk]
  intro a
  match a with
  | ⟨0, _⟩ =>
    show win0_1.index t (0 : Fin 2) * 128 ≤ (i 0).val ∧ (i 0).val < win0_1.index t (0 : Fin 2) * 128 + 128
    omega
  | ⟨1, _⟩ =>
    show win0_1.index t (1 : Fin 2) * 256 ≤ (i 1).val ∧ (i 1).val < win0_1.index t (1 : Fin 2) * 256 + 256
    omega

/-- The result array after the region: the row sums of the array the region finds. -/
theorem final (c : Dev nD) : (dat0 (F := Ideal) V c).arrAt 1 cfg0.N = rowSum (arr V c) :=
  (dat0 (F := Ideal) V c).arrAt_eq_of_cover 1 (rowSum (arr V c)) (fun t _ => flushed_eq V c t) cover

end Cert.KernelIdeal.RowSums

end
-- ==== Proof.ColSums.lean ====
/- Region 1 of the kernel, read as a value at the ideal instance.

   The second pallas_call tiles the [2048, 512, 64] array by blocks of [64, 512, 64] over a grid of 32 points and
   writes, per block, the sum over the middle axis into the [64, 64] block of the [2048, 64] result at the same
   block coordinate. So entry (n, d) of the result array is the sum over k of the argument's entry (n, k, d): the
   blocks are restrictions of that one function, and they tile the result. -/
import proofs.«426334_j31190052503810_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.ColSums

open Cert.KernelIdeal Cert.KernelIdeal.Gen Idealize.ShloMosaic Idealize.ShloMosaic.TcCoe Idealize.SL.Sem
open Idealize.ShloMosaic.ValueIdx
open Idealize.ShloMosaic.Pipeline (Dat Cfg Window)
open scoped BigOperators

/-- Entry (n, d) is the sum over the middle axis of the rank-3 array's column (n, ·, d). -/
def colSum (x : S2048x512x64.Idx → EReal) : S2048x64.Idx → EReal :=
  fun j => ∑ k : Fin 512, x (ix3 (j 0) k (j 1))

/-- The body's stored value at (p, q) of a block: the sum of the loaded block's column (p, ·, q). -/
theorem pay_apply (x0 : Vec Ideal S64x512x64 .f32) (p : Fin 64) (q : Fin 64) :
    k1_pay1 (F := Ideal) x0 (ix2 p q) = ∑ k : Fin 512, x0 (ix3 p k q) := by
  unfold k1_pay1
  refine (Ideal.multiReduction_add_single x0 _ reduces_S64x512x64_S64x64 (.inl rfl) rfl (ix2 p q)).trans ?_
  refine Finset.sum_congr rfl fun k _ => congrArg x0 ?_
  funext a
  apply Fin.ext
  match a with
  | ⟨0, _⟩ => rfl
  | ⟨1, _⟩ => rfl
  | ⟨2, _⟩ => rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The two windows' block coordinates at a grid point: the input block sits over the output block, at block 0 of
    the summed axis and of the last axis; decided over the 32 points. -/
theorem idx_facts : ∀ t : Fin cfg1.N, win1_0.index t (0 : Fin 3) = win1_1.index t (0 : Fin 2)
    ∧ win1_0.index t (1 : Fin 3) = 0
    ∧ win1_0.index t (2 : Fin 3) = 0
    ∧ win1_1.index t (1 : Fin 2) = 0
    ∧ win1_1.index t (0 : Fin 2) ≤ 31 :=
  (by decide +kernel : ∀ t : Fin grid1.N, _)

/-- Every block of the result is some point's. -/
theorem idx_onto : ∀ (q0 : Fin 32), ∃ t : Fin cfg1.N, win1_1.index t = ![q0.val, 0] :=
  (by decide +kernel : ∀ (q0 : Fin 32), ∃ t : Fin grid1.N, win1_1.index t = ![q0.val, 0])

variable (V : (c : Dev nD) → (b : Ref sig .tc) → Buf (Elt Ideal) ((c : Thread nD τ).loc b))

/-- The rank-3 argument array as the region finds it, at its literal type. -/
abbrev arr (c : Dev nD) : S2048x512x64.Idx → EReal := V c main_arg1

/-- What grid point `t` writes back is block `t` of the column sums of the array the region finds. -/
theorem flushed_eq (c : Dev nD) (t : Fin cfg1.N) :
    (dat1 (F := Ideal) V c).flushed 1 t = ((cfg1.win 1).blk t).view.read (Elt Ideal) (colSum (arr V c)) := by
  show (cfg1.win 1).cut (grid1.coords t) ((dat1 (F := Ideal) V c).after 1 t) = _
  rw [after1_1]
  unfold out1_1
  rw [View.canon_unit_zero hz2]
  simp only [View.ld_unit_zero (S := S64x512x64) hz3]
  obtain ⟨e0, e1, e2, e3, -⟩ := idx_facts t
  funext y
  obtain ⟨p, q, rfl⟩ : ∃ (p : Fin 64) (q : Fin 64), y = ix2 p q := ⟨y 0, y 1, eq_ix2 y⟩
  refine (pay_apply (iblk1 V c 0 t) p q).trans ?_
  show ∑ k : Fin 512, arr V c (((cfg1.win 0).blk t).view.emb (ix3 p k q))
    = ∑ k : Fin 512, arr V c (ix3 ((((cfg1.win 1).blk t).view.emb (ix2 p q)) 0) k ((((cfg1.win 1).blk t).view.emb (ix2 p q)) 1))
  refine Finset.sum_congr rfl fun k _ => congrArg (arr V c) ?_
  funext a
  apply Fin.ext
  match a with
  | ⟨0, _⟩ =>
    show win1_0.index t (0 : Fin 3) * 64 + 1 * p.val = win1_1.index t (0 : Fin 2) * 64 + 1 * p.val
    omega
  | ⟨1, _⟩ =>
    show win1_0.index t (1 : Fin 3) * 512 + 1 * k.val = k.val
    omega
  | ⟨2, _⟩ =>
    show win1_0.index t (2 : Fin 3) * 64 + 1 * q.val = win1_1.index t (1 : Fin 2) * 64 + 1 * q.val
    omega

/-- An index of the result array is in point `t`'s block iff each coordinate is in the block's range on its axis. -/
theorem mem_blk (t : Fin cfg1.N) (i : S2048x64.Idx) :
    i ∈ ((cfg1.win 1).blk t).view.set ↔ ∀ a : Fin 2, win1_1.index t a * S64x64.size a ≤ (i a).val ∧ (i a).val < win1_1.index t a * S64x64.size a + S64x64.size a := by
  show i ∈ ((View.whole main_v1).slice (win1_1.rect t)).set ↔ _
  rw [View.set_slice_whole, Rect.mem_set_unit]
  exact Iff.rfl

/-- The blocks tile the result array: entry (n, d) is in the block at n / 64. -/
theorem cover (i : S2048x64.Idx) :
    ∃ t : Fin cfg1.N, (cfg1.win 1).flush t = true ∧ i ∈ ((cfg1.win 1).blk t).view.set := by
  have hi0 : (i 0).val < 2048 := (i 0).isLt
  have hi1 : (i 1).val < 64 := (i 1).isLt
  obtain ⟨t, ht⟩ := idx_onto ⟨(i 0).val / 64, by omega⟩
  have q0 : win1_1.index t (0 : Fin 2) = (i 0).val / 64 := congrFun ht 0
  have q1 : win1_1.index t (1 : Fin 2) = 0 := congrFun ht 1
  refine ⟨t, flush1_1 t, ?_⟩
  rw [mem_blk]
  intro a
  match a with
  | ⟨0, _⟩ =>
    show win1_1.index t (0 : Fin 2) * 64 ≤ (i 0).val ∧ (i 0).val < win1_1.index t (0 : Fin 2) * 64 + 64
    omega
  | ⟨1, _⟩ =>
    show win1_1.index t (1 : Fin 2) * 64 ≤ (i 1).val ∧ (i 1).val < win1_1.index t (1 : Fin 2) * 64 + 64
    omega

/-- The result array after the region: the column sums of the array the region finds. -/
theorem final (c : Dev nD) : (dat1 (F := Ideal) V c).arrAt 1 cfg1.N = colSum (arr V c) :=
  (dat1 (F := Ideal) V c).arrAt_eq_of_cover 1 (colSum (arr V c)) (fun t _ => flushed_eq V c t) cover

end Cert.KernelIdeal.ColSums

end
-- ==== Proof.HostTail.lean ====
/- The idealized kernel's result as a function of its arguments.

   After the two regions the result buffer holds the host tail (the lookup, the contraction, the two scaled squared
   errors) of the buffers as the regions leave them; the first region leaves the row sums of the first argument in its
   output array, the second the column sums of the second argument, and neither touches anything else. -/
import proofs.«426334_j31190052503810_2_alg».proof.Proof.HostTailTerm
import proofs.«426334_j31190052503810_2_alg».proof.Proof.RowSums
import proofs.«426334_j31190052503810_2_alg».proof.Proof.ColSums
import Idealize.ShloMosaic.PureOps.Ideal

set_option maxRecDepth 16384

noncomputable section

namespace Cert.KernelIdeal.HostTail

open Cert.KernelIdeal Cert.KernelIdeal.Gen Cert.KernelIdeal.Tail
open Idealize.ShloMosaic Idealize.ShloMosaic.TcCoe Idealize.SL.Sem Idealize.ShloMosaic.StableHlo

variable (m : (ℓ : Loc nD τ sig) → Buf (Elt Ideal) ℓ) (ρ : Dev nD → PrngReg)

/-- The first region's output array at the second region's exit: the row sums of the first argument. -/
theorem W2_main_v0 (c : Dev nD) :
    W2 m ρ c (Proc.devRef .tc main_v0) = RowSums.rowSum (m ((c : Thread nD τ).loc main_arg0)) :=
  (W2_of_ne m ρ c main_v0 (by decide)).trans ((W1_arr m ρ c 1).trans (RowSums.final (V0 m ρ) c))

/-- The second region's output array at its exit: the column sums of the second argument. -/
theorem W2_main_v1 (c : Dev nD) :
    W2 m ρ c (Proc.devRef .tc main_v1) = ColSums.colSum (m ((c : Thread nD τ).loc main_arg1)) :=
  (W2_arr m ρ c 1).trans ((ColSums.final (V1 m ρ) c).trans (congrArg ColSums.colSum (V1_main_arg1 m ρ c)))

/-- The result of the idealized kernel as one function of its arguments. -/
theorem value (c : Dev nD) :
    W4 m ρ c (Proc.devRef .tc main_v13)
      = loss (F := Ideal) (m ((c : Thread nD τ).loc main_arg2))
          (proc0 (F := Ideal) (m ((c : Thread nD τ).loc main_arg4)) (m ((c : Thread nD τ).loc main_arg5))
            (RowSums.rowSum (m ((c : Thread nD τ).loc main_arg0))))
          (m ((c : Thread nD τ).loc main_arg3)) (ColSums.colSum (m ((c : Thread nD τ).loc main_arg1))) := by
  rw [result_eq, W2_main_arg2, W2_main_arg3, W2_main_arg4, W2_main_arg5, W2_main_v0, W2_main_v1]

end Cert.KernelIdeal.HostTail

end
-- ==== Proof.PreFacts.lean ====
/- What the precondition gives: every entry of the rank-3 first argument and of the lookup table is a real number,
   and every id, read signed, lies in [0, 256).

   The printed predicate is a conjunction of `jnp.all`s; each is a reduce by `and` into one word, which is 1 only if
   every operand word is. For a float array the operand word is the test |x| < +∞ (on the extended reals: x is neither
   infinity); for the ids it is the pair of signed comparisons with 0 and 256. -/
import proofs.«426334_j31190052503810_2_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreFacts

open Idealize.ShloMosaic Cert.Pre_finite_inputs Idealize.ShloMosaic.ValueIdx

instance : Subsingleton S_.Idx := ⟨fun a b => funext fun d => d.elim0⟩

/-- An extended real whose absolute value is below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec
  · exfalso; simp [Ideal.cmp] at h
  · exact ⟨_, rfl⟩
  · exfalso; simp [Ideal.cmp] at h

/-- The finiteness test of a float array, passed at an index, makes the entry there a real number. -/
theorem finite_at {s : Shape} (a : FVec Ideal s .f32) (hb : S_.BroadcastsInDim s (![] : Fin 0 → Fin s.rank)) (j : s.Idx)
    (h : cmpf .olt (Host.absf a) (broadcastInDim s ![] hb (constant S_ .f32 0x7F800000#32)) j = 1#1) :
    ∃ r : ℝ, a j = (r : EReal) :=
  real_of_abs_lt_top (a j) h

/-- The precondition, decoded. -/
theorem decode (a0 : FVec Ideal S1024x1024x32 .f32) (a1 : FVec Ideal S2048x512x64 .f32) (a2 : FVec Ideal S128x1024 .f32)
    (a3 : FVec Ideal S2048x64 .f32) (a4 : FVec Ideal S128x256 .f32) (a5 : IVec S1024 32)
    (h : fn (F := Ideal) a0 a1 a2 a3 a4 a5 = fun _ => 1#1) :
    (∀ j, ∃ r : ℝ, a0 j = (r : EReal)) ∧ (∀ j, ∃ r : ℝ, a4 j = (r : EReal))
      ∧ ∀ e : Fin 1024, 0 ≤ (a5 (ix1 e)).toInt ∧ (a5 (ix1 e)).toInt < 256 := by
  have h0 := congrFun h ix0
  dsimp only [fn, fn_part1] at h0
  simp only [andi, IntOp.andi_eq_one] at h0
  obtain ⟨⟨⟨⟨⟨h_0, -⟩, -⟩, -⟩, h_4⟩, h_5⟩ := h0
  refine ⟨fun j => ?_, fun j => ?_, fun e => ?_⟩
  · exact finite_at a0 _ j (Host.reduce_andi_all _ _ _ _ ix0 h_0 j)
  · exact finite_at a4 _ j (Host.reduce_andi_all _ _ _ _ ix0 h_4 j)
  · have he := Host.reduce_andi_all _ _ _ _ ix0 h_5 (ix1 e)
    have he' : IntOp.andi (IntOp.cmpi .sge (a5 (ix1 e)) 0#32) (IntOp.cmpi .slt (a5 (ix1 e)) 256#32) = 1#1 := he
    rw [IntOp.andi_eq_one, IntOp.cmpi_sge, IntOp.cmpi_slt] at he'
    have z0 : (0#32 : BitVec 32).toInt = 0 := by decide
    have z1 : (256#32 : BitVec 32).toInt = 256 := by decide
    rw [z0, z1] at he'
    exact he'

end Cert.PreFacts

end
-- ==== Proof.LibScatterGather.lean ====
/- The host's accumulating scatter and its row gather, read at one index, for the shapes that a segment sum
   over a list of edges and a row lookup by a list of edges take: a vector or a matrix of rows indexed by an
   [E × 1] column of signed index words.

   An update whose index word, read signed, lies in [0, N) is added into that row; any other update is dropped.
   A gathered row is the row at the index word read signed and clamped into [0, N − 1]. -/
import Idealize.ShloMosaic.PureOps.Ideal
import Idealize.ShloMosaic.Lib.ValueIdx
import Idealize.ShloMosaic.Lib.StableHlo.Predicate

noncomputable section

namespace Cert.ScatterGather

open Idealize.ShloMosaic Idealize.ShloMosaic.ValueIdx
open scoped BigOperators

/-- The row an index word names for a scatter into `N` rows: the word read signed, when it lies in [0, N);
    no row otherwise (the update is dropped). -/
def tgtW (N : Nat) {w : Nat} (x : BitVec w) : Option (Fin N) :=
  if h : 0 ≤ x.toInt ∧ x.toInt < (N : Int) then some ⟨x.toInt.toNat, by omega⟩ else none

/-- The row an index word names for a gather from `N` rows: the word read signed and clamped into [0, N − 1]. -/
def rowW (N : Nat) (hN : 0 < N) {w : Nat} (x : BitVec w) : Fin N := ⟨min x.toInt.toNat (N - 1), by omega⟩

/-- A word that names row `i` for the scatter names the same row for the gather. -/
theorem rowW_of_tgtW {N : Nat} (hN : 0 < N) {w : Nat} (x : BitVec w) (i : Fin N) (h : tgtW N x = some i) :
    rowW N hN x = i := by
  unfold tgtW at h
  split at h
  · next hx =>
    have hi : (⟨x.toInt.toNat, by omega⟩ : Fin N) = i := Option.some.inj h
    subst hi
    apply Fin.ext
    show min x.toInt.toNat (N - 1) = x.toInt.toNat
    omega
  · exact absurd h (by simp)

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The scatter into a vector -/

section Vec

variable {N E w : Nat} (d : ScatterDims ⟨1, ![N]⟩ ⟨2, ![E, 1]⟩ ⟨1, ![E]⟩)

/-- The start of update `e`'s window on the operand's one axis: the e-th index word, read signed. -/
theorem start_vec (hs : d.scatterDimsToOperandDims = [0]) (hv : d.indexVectorDim = 1)
    (idx : IVec ⟨2, ![E, 1]⟩ w) (e : Fin E) :
    d.start (ix1 e) idx 0 = (idx (ix2 e 0)).toInt := by
  have hm : (0 : Fin 1) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    have e' : ∀ X : Fin 1, ((ix1 e : (⟨1, ![E]⟩ : Shape).Idx) X).val = e.val := fun X => by
      have hX : X = 0 := Subsingleton.elim _ _
      subst hX; rfl
    exact e' _
  | ⟨1, _⟩ =>
    unfold ScatterDims.siIdx
    rw [dif_pos (by rw [hv])]
    apply Fin.ext
    show List.idxOf (0 : Fin 1) d.scatterDimsToOperandDims = 0
    rw [hs]; simp

/-- The operand's one axis is inserted: the window coordinate there is 0. -/
theorem window_vec (hi : d.insertedWindowDims = [0]) (j : (⟨1, ![E]⟩ : Shape).Idx) : d.window j 0 = 0 := by
  have hk : (0 : Fin 1) ∉ d.sKept := by simp [ScatterDims.sKept, Shape.kept, hi]
  unfold ScatterDims.window
  rw [dif_neg hk]

/-- Where update `e` lands: the row its index word names, when it names one. -/
theorem resultIdx?_vec (hi : d.insertedWindowDims = [0])
    (hs : d.scatterDimsToOperandDims = [0]) (hv : d.indexVectorDim = 1)
    (idx : IVec ⟨2, ![E, 1]⟩ w) (e : Fin E) :
    d.resultIdx? (ix1 e) idx = (tgtW N (idx (ix2 e 0))).map ix1 := by
  have hst := start_vec d hs hv idx e
  have hwi := window_vec d hi (ix1 e)
  unfold ScatterDims.resultIdx? tgtW
  by_cases hx : 0 ≤ (idx (ix2 e 0)).toInt ∧ (idx (ix2 e 0)).toInt < (N : Int)
  · have hall : ∀ a : Fin 1, 0 ≤ d.start (ix1 e) idx a + d.window (ix1 e) a ∧
        d.start (ix1 e) idx a + d.window (ix1 e) a < (⟨1, ![N]⟩ : Shape).size a := fun a => by
      obtain rfl : a = 0 := Subsingleton.elim _ _
      rw [hst, hwi]
      show 0 ≤ (idx (ix2 e 0)).toInt + ((0 : Nat) : Int) ∧ (idx (ix2 e 0)).toInt + ((0 : Nat) : Int) < (N : Int)
      omega
    rw [dif_pos hall, dif_pos hx]
    show some _ = some _
    congr 1
    funext a
    obtain rfl : a = 0 := Subsingleton.elim _ _
    apply Fin.ext
    show (d.start (ix1 e) idx 0 + d.window (ix1 e) 0).toNat = (idx (ix2 e 0)).toInt.toNat
    rw [hst, hwi]
    simp
  · have hnall : ¬ ∀ a : Fin 1, 0 ≤ d.start (ix1 e) idx a + d.window (ix1 e) a ∧
        d.start (ix1 e) idx a + d.window (ix1 e) a < (⟨1, ![N]⟩ : Shape).size a := fun hall => by
      have h0 := hall 0
      rw [hst, hwi] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Vec

/-- The scatter-add into a vector, at row `i`: the operand there plus the updates whose index word names row `i`. -/
theorem scatterAdd_vec_apply {N E w : Nat}
    (d : ScatterDims ⟨1, ![N]⟩ ⟨2, ![E, 1]⟩ ⟨1, ![E]⟩)
    (hu : d.updateWindowDims = []) (hi : d.insertedWindowDims = [0])
    (hs : d.scatterDimsToOperandDims = [0]) (hv : d.indexVectorDim = 1)
    (x : (⟨1, ![N]⟩ : Shape).Idx → EReal) (idx : IVec ⟨2, ![E, 1]⟩ w) (upd : (⟨1, ![E]⟩ : Shape).Idx → EReal) (i : Fin N) :
    Ideal.hostScatterAdd d x idx upd (ix1 i)
      = x (ix1 i) + ∑ e ∈ Finset.univ.filter (fun e : Fin E => tgtW N (idx (ix2 e 0)) = some i), upd (ix1 e) := by
  show x (ix1 i) + ∑ j ∈ Finset.univ.filter (fun j => d.resultIdx? j idx = some (ix1 i)), upd j = _
  congr 1
  rw [Finset.sum_filter, Finset.sum_filter, sum_idx1]
  refine Finset.sum_congr rfl fun e _ => ?_
  have hiff : d.resultIdx? (ix1 e) idx = some (ix1 i) ↔ tgtW N (idx (ix2 e 0)) = some i := by
    rw [resultIdx?_vec d hi hs hv idx e]
    cases tgtW N (idx (ix2 e 0)) with
    | none => simp
    | some r =>
      simp only [Option.map_some, Option.some.injEq]
      constructor
      · intro h'
        exact congrFun h' 0
      · intro h'
        rw [h']
  exact if_congr hiff rfl rfl

/-! ## The scatter of rows into a matrix -/

/-- The first coordinate of a rank-2 index, read on an axis known to be axis 0. -/
theorem ix2_val_axis0 {n0 n1 : Nat} (a : Fin n0) (b : Fin n1) (X : Fin 2) (hX : X = 0) :
    ((ix2 a b : (⟨2, ![n0, n1]⟩ : Shape).Idx) X).val = a.val := by
  subst hX; rfl

/-- The second coordinate of a rank-2 index, read on an axis known to be axis 1. -/
theorem ix2_val_axis1 {n0 n1 : Nat} (a : Fin n0) (b : Fin n1) (X : Fin 2) (hX : X = 1) :
    ((ix2 a b : (⟨2, ![n0, n1]⟩ : Shape).Idx) X).val = b.val := by
  subst hX; rfl

section Rows

variable {N H E w : Nat} (d : ScatterDims ⟨2, ![N, H]⟩ ⟨2, ![E, 1]⟩ ⟨2, ![E, H]⟩)

/-- The updates' scatter axis is axis 0 (axis 1 is the window axis). -/
theorem uScatter_rows (hu : d.updateWindowDims = [1]) : d.uScatter = [0] := by
  show (List.finRange 2).filter (fun a => a ∉ d.updateWindowDims) = [0]
  rw [hu]
  exact (by decide : (List.finRange 2).filter (fun a : Fin 2 => a ∉ [(1 : Fin 2)]) = [(0 : Fin 2)])

/-- The operand's kept axis is axis 1 (axis 0 is inserted). -/
theorem sKept_rows (hi : d.insertedWindowDims = [0]) : d.sKept = [1] := by
  show (List.finRange 2).filter (fun a => a ∉ d.insertedWindowDims) = [1]
  rw [hi]
  exact (by decide : (List.finRange 2).filter (fun a : Fin 2 => a ∉ [(0 : Fin 2)]) = [(1 : Fin 2)])

/-- The start of update (e, c)'s window on the operand's row axis: the e-th index word, read signed. -/
theorem start_rows0 (hu : d.updateWindowDims = [1])
    (hs : d.scatterDimsToOperandDims = [0]) (hv : d.indexVectorDim = 1)
    (idx : IVec ⟨2, ![E, 1]⟩ w) (e : Fin E) (c : Fin H) :
    d.start (ix2 e c) idx 0 = (idx (ix2 e 0)).toInt := by
  have hm : (0 : Fin 2) ∈ d.scatterDimsToOperandDims := by rw [hs]; exact List.mem_singleton.mpr rfl
  unfold ScatterDims.start
  rw [dif_pos hm]
  congr 2
  funext b
  match b with
  | ⟨0, _⟩ =>
    unfold ScatterDims.siIdx
    rw [dif_neg (by rw [hv]; simp)]
    unfold ScatterDims.siCoord
    apply Fin.ext
    simp only [Fin.val_cast]
    refine ix2_val_axis0 e c _ ?_
    have hall : ∀ X ∈ d.uScatter, X = 0 := by
      rw [uScatter_rows d hu]; intro X hX; exact List.mem_singleton.mp hX
    exact hall _ (List.getElem_mem _)
  | ⟨1, _⟩ =>
    unfold ScatterDims.siIdx
    rw [dif_pos (by rw [hv])]
    apply Fin.ext
    show List.idxOf (0 : Fin 2) d.scatterDimsToOperandDims = 0
    rw [hs]; simp

/-- The start index names no column: the window starts at column 0. -/
theorem start_rows1 (hs : d.scatterDimsToOperandDims = [0])
    (idx : IVec ⟨2, ![E, 1]⟩ w) (j : (⟨2, ![E, H]⟩ : Shape).Idx) : d.start j idx 1 = 0 := by
  have hm : (1 : Fin 2) ∉ d.scatterDimsToOperandDims := by
    rw [hs]; exact (by decide : (1 : Fin 2) ∉ [(0 : Fin 2)])
  unfold ScatterDims.start
  rw [dif_neg hm]

/-- The operand's row axis is inserted: the window coordinate there is 0. -/
theorem window_rows0 (hi : d.insertedWindowDims = [0]) (j : (⟨2, ![E, H]⟩ : Shape).Idx) : d.window j 0 = 0 := by
  have hk : (0 : Fin 2) ∉ d.sKept := by
    rw [sKept_rows d hi]; exact (by decide : (0 : Fin 2) ∉ [(1 : Fin 2)])
  unfold ScatterDims.window
  rw [dif_neg hk]

/-- The operand's column axis is the window axis: the window coordinate there is the update's column. -/
theorem window_rows1 (hu : d.updateWindowDims = [1]) (hi : d.insertedWindowDims = [0]) (e : Fin E) (c : Fin H) :
    d.window (ix2 e c) 1 = c.val := by
  have hk : (1 : Fin 2) ∈ d.sKept := by rw [sKept_rows d hi]; exact List.mem_singleton.mpr rfl
  unfold ScatterDims.window
  rw [dif_pos hk]
  refine ix2_val_axis1 e c _ ?_
  have hall : ∀ X ∈ d.updateWindowDims, X = 1 := by
    rw [hu]; intro X hX; exact List.mem_singleton.mp hX
  exact hall _ (List.getElem_mem _)

/-- Where update (e, c) lands: column `c` of the row its index word names, when it names one. -/
theorem resultIdx?_rows (hu : d.updateWindowDims = [1]) (hi : d.insertedWindowDims = [0])
    (hs : d.scatterDimsToOperandDims = [0]) (hv : d.indexVectorDim = 1)
    (idx : IVec ⟨2, ![E, 1]⟩ w) (e : Fin E) (c : Fin H) :
    d.resultIdx? (ix2 e c) idx = (tgtW N (idx (ix2 e 0))).map (fun r => ix2 r c) := by
  have hst0 := start_rows0 d hu hs hv idx e c
  have hst1 := start_rows1 d hs idx (ix2 e c)
  have hwi0 := window_rows0 d hi (ix2 e c)
  have hwi1 := window_rows1 d hu hi e c
  have hc := c.isLt
  unfold ScatterDims.resultIdx? tgtW
  by_cases hx : 0 ≤ (idx (ix2 e 0)).toInt ∧ (idx (ix2 e 0)).toInt < (N : Int)
  · have hall : ∀ a : Fin 2, 0 ≤ d.start (ix2 e c) idx a + d.window (ix2 e c) a ∧
        d.start (ix2 e c) idx a + d.window (ix2 e c) a < (⟨2, ![N, H]⟩ : Shape).size a := by
      refine Fin.forall_fin_two.2 ⟨?_, ?_⟩
      · rw [hst0, hwi0]
        show 0 ≤ (idx (ix2 e 0)).toInt + ((0 : Nat) : Int) ∧ (idx (ix2 e 0)).toInt + ((0 : Nat) : Int) < (N : Int)
        omega
      · rw [hst1, hwi1]
        show 0 ≤ (0 : Int) + (c.val : Int) ∧ (0 : Int) + (c.val : Int) < (H : Int)
        omega
    rw [dif_pos hall, dif_pos hx]
    show some _ = some _
    congr 1
    have hpt : ∀ a : Fin 2,
        (⟨(d.start (ix2 e c) idx a + d.window (ix2 e c) a).toNat, by have := hall a; omega⟩ :
          Fin ((⟨2, ![N, H]⟩ : Shape).size a))
        = (ix2 (⟨(idx (ix2 e 0)).toInt.toNat, by omega⟩ : Fin N) c : (⟨2, ![N, H]⟩ : Shape).Idx) a := by
      refine Fin.forall_fin_two.2 ⟨?_, ?_⟩
      · apply Fin.ext
        show (d.start (ix2 e c) idx 0 + d.window (ix2 e c) 0).toNat = (idx (ix2 e 0)).toInt.toNat
        rw [hst0, hwi0]
        simp
      · apply Fin.ext
        show (d.start (ix2 e c) idx 1 + d.window (ix2 e c) 1).toNat = c.val
        rw [hst1, hwi1]
        simp
    funext a
    exact hpt a
  · have hnall : ¬ ∀ a : Fin 2, 0 ≤ d.start (ix2 e c) idx a + d.window (ix2 e c) a ∧
        d.start (ix2 e c) idx a + d.window (ix2 e c) a < (⟨2, ![N, H]⟩ : Shape).size a := fun hall => by
      have h0 := hall 0
      rw [hst0, hwi0] at h0
      apply hx
      have h0' : 0 ≤ (idx (ix2 e 0)).toInt + ((0 : Nat) : Int) ∧ (idx (ix2 e 0)).toInt + ((0 : Nat) : Int) < (N : Int) := h0
      omega
    rw [dif_neg hnall, dif_neg hx]
    rfl

end Rows

/-- The scatter-add of rows into a matrix, at (i, j): the operand there plus column `j` of the update rows whose
    index word names row `i`. -/
theorem scatterAdd_rows_apply {N H E w : Nat}
    (d : ScatterDims ⟨2, ![N, H]⟩ ⟨2, ![E, 1]⟩ ⟨2, ![E, H]⟩)
    (hu : d.updateWindowDims = [1]) (hi : d.insertedWindowDims = [0])
    (hs : d.scatterDimsToOperandDims = [0]) (hv : d.indexVectorDim = 1)
    (x : (⟨2, ![N, H]⟩ : Shape).Idx → EReal) (idx : IVec ⟨2, ![E, 1]⟩ w) (upd : (⟨2, ![E, H]⟩ : Shape).Idx → EReal)
    (i : Fin N) (j : Fin H) :
    Ideal.hostScatterAdd d x idx upd (ix2 i j)
      = x (ix2 i j) + ∑ e ∈ Finset.univ.filter (fun e : Fin E => tgtW N (idx (ix2 e 0)) = some i), upd (ix2 e j) := by
  show x (ix2 i j) + ∑ u ∈ Finset.univ.filter (fun u => d.resultIdx? u idx = some (ix2 i j)), upd u = _
  congr 1
  rw [Finset.sum_filter, Finset.sum_filter, sum_idx2]
  refine Finset.sum_congr rfl fun e _ => ?_
  have hiff : ∀ c : Fin H, d.resultIdx? (ix2 e c) idx = some (ix2 i j) ↔ (tgtW N (idx (ix2 e 0)) = some i ∧ c = j) := by
    intro c
    rw [resultIdx?_rows d hu hi hs hv idx e c]
    cases tgtW N (idx (ix2 e 0)) with
    | none => simp
    | some r =>
      simp only [Option.map_some, Option.some.injEq]
      constructor
      · intro h'
        exact ⟨congrFun h' 0, congrFun h' 1⟩
      · rintro ⟨h1, h2⟩
        rw [h1, h2]
  by_cases hq : tgtW N (idx (ix2 e 0)) = some i
  · rw [if_pos hq]
    rw [Finset.sum_eq_single j]
    · rw [if_pos ((hiff j).2 ⟨hq, rfl⟩)]
    · intro c _ hcj
      rw [if_neg (fun h => hcj ((hiff c).1 h).2)]
    · intro hj
      exact absurd (Finset.mem_univ j) hj
  · rw [if_neg hq]
    refine Finset.sum_eq_zero fun c _ => ?_
    rw [if_neg (fun h => hq ((hiff c).1 h).1)]

/-! ## The row gather -/

section GatherRows

variable {N H E w : Nat} (d : GatherDims ⟨2, ![N, H]⟩ ⟨2, ![E, 1]⟩ ⟨2, ![E, H]⟩)

/-- The operand's kept axis is the column axis (the row axis is collapsed). -/
theorem gather_sKept_rows (hcoll : d.collapsedSliceDims = [0]) (hob : d.operandBatchingDims = []) : d.sKept = [1] := by
  show (List.finRange 2).filter (fun a => a ∉ d.collapsedSliceDims ++ d.operandBatchingDims) = [1]
  rw [hcoll, hob]
  exact (by decide : (List.finRange 2).filter (fun a : Fin 2 => a ∉ [(0 : Fin 2)] ++ []) = [(1 : Fin 2)])

/-- The result's batch axis is axis 0 (axis 1 is the offset axis). -/
theorem gather_batchDims_rows (hoff : d.offsetDims = [1]) : d.batchDims = [0] := by
  show (List.finRange 2).filter (fun a => a ∉ d.offsetDims) = [0]
  rw [hoff]
  exact (by decide : (List.finRange 2).filter (fun a : Fin 2 => a ∉ [(1 : Fin 2)]) = [(0 : Fin 2)])

/-- Result index (e, j) reads its start index at row `e` of the column of index words. -/
theorem gather_siIdx_rows (hoff : d.offsetDims = [1]) (hsim : d.startIndexMap = [0]) (hivd : d.indexVectorDim = 1)
    (e : Fin E) (j : Fin H) (c : Fin d.startIndexMap.length) :
    d.siIdx (ix2 e j) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis0 e j _ ?_
    have hall : ∀ X ∈ d.batchDims, X = 0 := by
      rw [gather_batchDims_rows d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the row axis: the e-th index word read signed and clamped into [0, N − 1]. -/
theorem gather_start_rows0 (hoff : d.offsetDims = [1]) (hcoll : d.collapsedSliceDims = [0])
    (hsim : d.startIndexMap = [0]) (hivd : d.indexVectorDim = 1)
    (idx : IVec ⟨2, ![E, 1]⟩ w) (e : Fin E) (j : Fin H) :
    d.start (ix2 e j) idx 0 = min (idx (ix2 e 0)).toInt.toNat (N - 1) := by
  have hm : (0 : Fin 2) ∈ d.startIndexMap := by rw [hsim]; exact List.mem_singleton.mpr rfl
  have hsl : d.sliceSizes 0 = 1 := d.slice_collapsed 0 (by rw [hcoll]; exact List.mem_singleton.mpr rfl)
  unfold GatherDims.start
  rw [dif_pos hm, gather_siIdx_rows d hoff hsim hivd e j]
  show min (idx (ix2 e 0)).toInt.toNat (N - d.sliceSizes 0) = _
  rw [hsl]

/-- The start index names no column: the slice starts at column 0. -/
theorem gather_start_rows1 (hsim : d.startIndexMap = [0])
    (idx : IVec ⟨2, ![E, 1]⟩ w) (y : (⟨2, ![E, H]⟩ : Shape).Idx) : d.start y idx 1 = 0 := by
  have hm : (1 : Fin 2) ∉ d.startIndexMap := by
    rw [hsim]; exact (by decide : (1 : Fin 2) ∉ [(0 : Fin 2)])
  unfold GatherDims.start
  rw [dif_neg hm]

/-- The offset coordinate on the column axis is the result's column. -/
theorem gather_offCoord_rows1 (hoff : d.offsetDims = [1]) (hcoll : d.collapsedSliceDims = [0])
    (hob : d.operandBatchingDims = []) (e : Fin E) (j : Fin H) :
    d.offCoord (ix2 e j) 1 = j.val := by
  have hk : (1 : Fin 2) ∈ d.sKept := by rw [gather_sKept_rows d hcoll hob]; exact List.mem_singleton.mpr rfl
  unfold GatherDims.offCoord
  rw [dif_pos hk]
  refine ix2_val_axis1 e j _ ?_
  have hall : ∀ X ∈ d.offsetDims, X = 1 := by
    rw [hoff]; intro X hX; exact List.mem_singleton.mp hX
  exact hall _ (List.getElem_mem _)

end GatherRows

/-- The gather of rows of a matrix, at (e, j): column `j` of the row the e-th index word names. -/
theorem gather_rows_apply {α : Type} {N H E w : Nat} (hN : 0 < N)
    (d : GatherDims ⟨2, ![N, H]⟩ ⟨2, ![E, 1]⟩ ⟨2, ![E, H]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, H])
    (x : (⟨2, ![N, H]⟩ : Shape).Idx → α) (idx : IVec ⟨2, ![E, 1]⟩ w) (e : Fin E) (j : Fin H) :
    Host.gather d x idx (ix2 e j) = x (ix2 (rowW N hN (idx (ix2 e 0))) j) := by
  unfold Host.gather
  congr 1
  have hb : ∀ a : Fin 2, a ∉ d.operandBatchingDims := fun a => by rw [hob]; exact List.not_mem_nil
  have hk0 : (0 : Fin 2) ∉ d.sKept := by
    rw [gather_sKept_rows d hcoll hob]; exact (by decide : (0 : Fin 2) ∉ [(1 : Fin 2)])
  have hpt : ∀ a : Fin 2, d.operandIdx (ix2 e j) idx a
      = (ix2 (rowW N hN (idx (ix2 e 0))) j : (⟨2, ![N, H]⟩ : Shape).Idx) a := by
    refine Fin.forall_fin_two.2 ⟨?_, ?_⟩
    · apply Fin.ext
      show d.start (ix2 e j) idx 0 + d.batchCoord (ix2 e j) 0 + d.offCoord (ix2 e j) 0
        = min (idx (ix2 e 0)).toInt.toNat (N - 1)
      rw [GatherDims.batchCoord_eq_zero _ _ _ (hb 0), GatherDims.offCoord_eq_zero _ _ _ hk0,
        gather_start_rows0 d hoff hcoll hsim hivd idx e j]
      simp only [Nat.add_zero]
    · apply Fin.ext
      show d.start (ix2 e j) idx 1 + d.batchCoord (ix2 e j) 1 + d.offCoord (ix2 e j) 1 = j.val
      rw [GatherDims.batchCoord_eq_zero _ _ _ (hb 1), gather_offCoord_rows1 d hoff hcoll hob e j,
        gather_start_rows1 d hsim idx (ix2 e j)]
      omega
  funext a
  exact hpt a

/-- The gather of entries of a vector, at `e`: the entry the e-th index word names (the library's take, restated
    with `rowW`). -/
theorem gather_vec_apply {α : Type} {N E w : Nat} (hN : 0 < N)
    (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (e : Fin E) :
    Host.gather d x idx (ix1 e) = x (ix1 (rowW N hN (idx (ix2 e 0)))) := by
  have h := StableHlo.Predicate.gather_take d hcoll hob hsim hivd x idx e hN
  have h1 : (Shape.Idx.ofFin e : (⟨1, ![E]⟩ : Shape).Idx) = ix1 e := by
    funext a
    match a with
    | ⟨0, _⟩ => rfl
  have h2 : (StableHlo.Predicate.ixP e : (⟨2, ![E, 1]⟩ : Shape).Idx) = ix2 e 0 := by
    funext a
    match a with
    | ⟨0, _⟩ => rfl
    | ⟨1, _⟩ => rfl
  rw [h1] at h
  rw [h]
  congr 1
  funext a
  match a with
  | ⟨0, _⟩ =>
    apply Fin.ext
    show min (idx (StableHlo.Predicate.ixP e)).toInt.toNat (N - 1) = min (idx (ix2 e 0)).toInt.toNat (N - 1)
    rw [h2]

end Cert.ScatterGather

end
-- ==== Proof.LibGatherCols.lean ====
/- The host's gather of COLUMNS of a matrix, read at one index: the shape a lookup `table[:, ids]` takes, an
   [H × N] matrix indexed on its second axis by an [E × 1] column of signed index words, giving an [H × E] matrix.

   Entry (i, e) of the result is entry (i, c) of the matrix, where c is the e-th index word read signed and clamped
   into [0, N − 1] (the same clamp as the row gather's). -/
import proofs.«426334_j31190052503810_2_alg».proof.Proof.LibScatterGather

noncomputable section

namespace Cert.GatherCols

open Idealize.ShloMosaic Idealize.ShloMosaic.ValueIdx Cert.ScatterGather

section Cols

variable {N H E w : Nat} (d : GatherDims ⟨2, ![H, N]⟩ ⟨2, ![E, 1]⟩ ⟨2, ![H, E]⟩)

/-- The operand's kept axis is the row axis (the column axis is collapsed). -/
theorem sKept_cols (hcoll : d.collapsedSliceDims = [1]) (hob : d.operandBatchingDims = []) : d.sKept = [0] := by
  show (List.finRange 2).filter (fun a => a ∉ d.collapsedSliceDims ++ d.operandBatchingDims) = [0]
  rw [hcoll, hob]
  exact (by decide : (List.finRange 2).filter (fun a : Fin 2 => a ∉ [(1 : Fin 2)] ++ []) = [(0 : Fin 2)])

/-- The result's batch axis is axis 1 (axis 0 is the offset axis). -/
theorem batchDims_cols (hoff : d.offsetDims = [0]) : d.batchDims = [1] := by
  show (List.finRange 2).filter (fun a => a ∉ d.offsetDims) = [1]
  rw [hoff]
  exact (by decide : (List.finRange 2).filter (fun a : Fin 2 => a ∉ [(0 : Fin 2)]) = [(1 : Fin 2)])

/-- Result index (i, e) reads its start index at row `e` of the column of index words. -/
theorem siIdx_cols (hoff : d.offsetDims = [0]) (hsim : d.startIndexMap = [1]) (hivd : d.indexVectorDim = 1)
    (i : Fin H) (e : Fin E) (c : Fin d.startIndexMap.length) :
    d.siIdx (ix2 i e) c = ix2 e 0 := by
  funext b
  match b with
  | ⟨0, _⟩ =>
    unfold GatherDims.siIdx
    rw [dif_neg (by rw [hivd]; simp)]
    unfold GatherDims.siCoord
    apply Fin.ext
    simp only [Fin.val_cast]
    refine ix2_val_axis1 i e _ ?_
    have hall : ∀ X ∈ d.batchDims, X = 1 := by
      rw [batchDims_cols d hoff]; intro X hX; exact List.mem_singleton.mp hX
    exact hall _ (List.getElem_mem _)
  | ⟨1, _⟩ =>
    unfold GatherDims.siIdx
    rw [dif_pos (by rw [hivd])]
    apply Fin.ext
    show c.val = 0
    have hlen : d.startIndexMap.length = 1 := by rw [hsim]; rfl
    have hc := c.isLt
    omega

/-- The start of the slice on the column axis: the e-th index word read signed and clamped into [0, N − 1]. -/
theorem start_cols1 (hoff : d.offsetDims = [0]) (hcoll : d.collapsedSliceDims = [1])
    (hsim : d.startIndexMap = [1]) (hivd : d.indexVectorDim = 1)
    (idx : IVec ⟨2, ![E, 1]⟩ w) (i : Fin H) (e : Fin E) :
    d.start (ix2 i e) idx 1 = min (idx (ix2 e 0)).toInt.toNat (N - 1) := by
  have hm : (1 : Fin 2) ∈ d.startIndexMap := by rw [hsim]; exact List.mem_singleton.mpr rfl
  have hsl : d.sliceSizes 1 = 1 := d.slice_collapsed 1 (by rw [hcoll]; exact List.mem_singleton.mpr rfl)
  unfold GatherDims.start
  rw [dif_pos hm, siIdx_cols d hoff hsim hivd i e]
  show min (idx (ix2 e 0)).toInt.toNat (N - d.sliceSizes 1) = _
  rw [hsl]

/-- The start index names no row: the slice starts at row 0. -/
theorem start_cols0 (hsim : d.startIndexMap = [1])
    (idx : IVec ⟨2, ![E, 1]⟩ w) (y : (⟨2, ![H, E]⟩ : Shape).Idx) : d.start y idx 0 = 0 := by
  have hm : (0 : Fin 2) ∉ d.startIndexMap := by
    rw [hsim]; exact (by decide : (0 : Fin 2) ∉ [(1 : Fin 2)])
  unfold GatherDims.start
  rw [dif_neg hm]

/-- The offset coordinate on the row axis is the result's row. -/
theorem offCoord_cols0 (hoff : d.offsetDims = [0]) (hcoll : d.collapsedSliceDims = [1])
    (hob : d.operandBatchingDims = []) (i : Fin H) (e : Fin E) :
    d.offCoord (ix2 i e) 0 = i.val := by
  have hk : (0 : Fin 2) ∈ d.sKept := by rw [sKept_cols d hcoll hob]; exact List.mem_singleton.mpr rfl
  unfold GatherDims.offCoord
  rw [dif_pos hk]
  refine ix2_val_axis0 i e _ ?_
  have hall : ∀ X ∈ d.offsetDims, X = 0 := by
    rw [hoff]; intro X hX; exact List.mem_singleton.mp hX
  exact hall _ (List.getElem_mem _)

end Cols

/-- The gather of columns of a matrix, at (i, e): row `i` of the column the e-th index word names. -/
theorem gather_cols_apply {α : Type} {N H E w : Nat} (hN : 0 < N)
    (d : GatherDims ⟨2, ![H, N]⟩ ⟨2, ![E, 1]⟩ ⟨2, ![H, E]⟩)
    (hoff : d.offsetDims = [0]) (hcoll : d.collapsedSliceDims = [1]) (hob : d.operandBatchingDims = [])
    (hsim : d.startIndexMap = [1]) (hivd : d.indexVectorDim = 1)
    (x : (⟨2, ![H, N]⟩ : Shape).Idx → α) (idx : IVec ⟨2, ![E, 1]⟩ w) (i : Fin H) (e : Fin E) :
    Host.gather d x idx (ix2 i e) = x (ix2 i (rowW N hN (idx (ix2 e 0)))) := by
  unfold Host.gather
  congr 1
  have hb : ∀ a : Fin 2, a ∉ d.operandBatchingDims := fun a => by rw [hob]; exact List.not_mem_nil
  have hk1 : (1 : Fin 2) ∉ d.sKept := by
    rw [sKept_cols d hcoll hob]; exact (by decide : (1 : Fin 2) ∉ [(0 : Fin 2)])
  have hpt : ∀ a : Fin 2, d.operandIdx (ix2 i e) idx a
      = (ix2 i (rowW N hN (idx (ix2 e 0))) : (⟨2, ![H, N]⟩ : Shape).Idx) a := by
    refine Fin.forall_fin_two.2 ⟨?_, ?_⟩
    · apply Fin.ext
      show d.start (ix2 i e) idx 0 + d.batchCoord (ix2 i e) 0 + d.offCoord (ix2 i e) 0 = i.val
      rw [GatherDims.batchCoord_eq_zero _ _ _ (hb 0), offCoord_cols0 d hoff hcoll hob i e,
        start_cols0 d hsim idx (ix2 i e)]
      omega
    · apply Fin.ext
      show d.start (ix2 i e) idx 1 + d.batchCoord (ix2 i e) 1 + d.offCoord (ix2 i e) 1
        = min (idx (ix2 e 0)).toInt.toNat (N - 1)
      rw [GatherDims.batchCoord_eq_zero _ _ _ (hb 1), GatherDims.offCoord_eq_zero _ _ _ hk1,
        start_cols1 d hoff hcoll hsim hivd idx i e]
      simp only [Nat.add_zero]
  funext a
  exact hpt a

end Cert.GatherCols

end
-- ==== Proof.TakeRead.lean ====
/- The kernel's lookup read at an index, for ids in range.

   When every id, read signed, lies in [0, 256): no id is wrapped (the test id < 0 fails), every wrapped id passes
   the range test 0 ≤ id ≤ 255, so no column is replaced by the fill, and column r of the looked-up matrix is the
   table's column at id r. -/
import proofs.«426334_j31190052503810_2_alg».proof.Proof.TailDefs
import proofs.«426334_j31190052503810_2_alg».proof.Proof.LibGatherCols
import Idealize.ShloMosaic.Lib.Affine
import Idealize.ShloMosaic.Lib.Pipeline.Value
import Idealize.ShloMosaic.Lib.ValueIdx

noncomputable section

namespace Cert.KernelIdeal.TakeRead

open Cert.KernelIdeal Cert.KernelIdeal.Tail Idealize.ShloMosaic Idealize.ShloMosaic.ValueIdx
open Cert.KernelIdeal.Facts₀ Cert.KernelIdeal.Facts
open Cert.ScatterGather Cert.GatherCols

/-- A left fold by `and` from 1 over words that are all 1 is 1. -/
theorem foldl_andi_one {ι : Type} (g : ι → BitVec 1) (l : List ι) (h : ∀ n ∈ l, g n = 1#1) :
    l.foldl (fun r n => IntOp.andi r (g n)) 1#1 = 1#1 := by
  induction l with
  | nil => rfl
  | cons a l ih =>
    rw [List.foldl_cons, h a (List.mem_cons_self ..)]
    have h11 : IntOp.andi (1#1 : BitVec 1) 1#1 = 1#1 := by decide
    rw [h11]
    exact ih fun n hn => h n (List.mem_cons_of_mem _ hn)

/-- A reduce by `and` from 1 over words that are all 1 is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x _ fun n _ => hx n

variable (idx : IVec S1024 32) (hidx : ∀ e : Fin 1024, 0 ≤ (idx (ix1 e)).toInt ∧ (idx (ix1 e)).toInt < 256)

include hidx in
/-- No id is wrapped: the column of ids is the ids. -/
theorem takeIds_apply (e : Fin 1024) : takeIds idx (ix2 e 0) = idx (ix1 e) := by
  unfold takeIds
  rw [broadcastInDim_apply _ bcast_S1024_S1024x1_0 _ (ix2 e 0) (ix1 e) (fun a => match a with
    | ⟨0, _⟩ => by show e.val = if (1024 : Nat) = 1 then 0 else e.val; rw [if_neg (by decide)])]
  show Scalar.select (IntOp.cmpi .slt (idx (ix1 e)) 0#32) (IntOp.addi (idx (ix1 e)) 256#32) (idx (ix1 e)) = idx (ix1 e)
  have hn : ¬ IntOp.cmpi .slt (idx (ix1 e)) 0#32 = 1#1 := fun hc => by
    rw [IntOp.cmpi_slt] at hc
    have z0 : (0#32 : BitVec 32).toInt = 0 := by decide
    rw [z0] at hc
    have := (hidx e).1
    omega
  unfold Scalar.select
  exact if_neg hn

include hidx in
/-- Every id passes the range test. -/
theorem takeOk_apply (r : Fin 1024) : takeOk (takeIds idx) (ix1 r) = 1#1 := by
  unfold takeOk
  refine reduce_andi_of_all _ _ reducesTo_S1024x1_S1024_d1 h_S_ (ix1 r) (fun _ => rfl) fun y => ?_
  obtain ⟨e, z, rfl⟩ : ∃ (e : Fin 1024) (z : Fin 1), y = ix2 e z := ⟨y 0, y 1, eq_ix2 y⟩
  obtain rfl : z = 0 := Subsingleton.elim _ _
  show IntOp.andi (IntOp.cmpi .sge (takeIds idx (ix2 e 0)) 0#32) (IntOp.cmpi .sle (takeIds idx (ix2 e 0)) 255#32) = 1#1
  rw [takeIds_apply idx hidx e, IntOp.andi_eq_one, IntOp.cmpi_sge, IntOp.cmpi_sle]
  have z0 : (0#32 : BitVec 32).toInt = 0 := by decide
  have z1 : (255#32 : BitVec 32).toInt = 255 := by decide
  rw [z0, z1]
  have := hidx e
  omega

variable {F : FTy → Type} [FloatOps F]

include hidx in
/-- Column r of the looked-up matrix is the table's column at id r. -/
theorem takeCols_apply (mp : FVec F S128x256 .f32) (i : Fin 128) (r : Fin 1024) :
    takeCols mp idx (ix2 i r) = mp (ix2 i (rowW 256 (by decide) (idx (ix1 r)))) := by
  unfold takeCols
  show Scalar.select (broadcastInDim S128x1024 ![1] bcast_S1024_S128x1024_1 (takeOk (takeIds idx)) (ix2 i r))
    (Host.gather gather_S128x256_S1024x1_S128x1024_0_1_n_n_1_1_1281 mp (takeIds idx) (ix2 i r))
    (broadcastInDim S128x1024 ![] bcast_S_S128x1024 (constant S_ .f32 0x7FC00000#32) (ix2 i r)) = _
  rw [broadcastInDim_apply _ bcast_S1024_S128x1024_1 _ (ix2 i r) (ix1 r) (fun a => match a with
    | ⟨0, _⟩ => by show r.val = if (1024 : Nat) = 1 then 0 else r.val; rw [if_neg (by decide)])]
  unfold Scalar.select
  have hok : takeOk (takeIds idx) (ix1 r) = 1 := takeOk_apply idx hidx r
  rw [if_pos hok]
  rw [gather_cols_apply (by decide : 0 < 256) gather_S128x256_S1024x1_S128x1024_0_1_n_n_1_1_1281 rfl rfl rfl rfl rfl mp (takeIds idx) i r,
    takeIds_apply idx hidx r]

end Cert.KernelIdeal.TakeRead

end
-- ==== Proof.Proc0Read.lean ====
/- The kernel's first prediction read at an index, at the ideal instance: entry (i, a) is the sum over the 1024 rows r
   of the looked-up matrix's entry (i, r) times the row sums' entry (a, r) (the contraction is against the TRANSPOSED
   row sums, and at the ideal instance a `dot_general` is the plain sum of products). -/
import proofs.«426334_j31190052503810_2_alg».proof.Proof.TailDefs
import Idealize.ShloMosaic.Lib.Pipeline.Value
import Idealize.ShloMosaic.Lib.ValueIdx
import Idealize.ShloMosaic.PureOps.Ideal.Laws

noncomputable section

namespace Cert.KernelIdeal.Proc0Read

open Cert.KernelIdeal Cert.KernelIdeal.Tail Idealize.ShloMosaic Idealize.ShloMosaic.ValueIdx
open Cert.KernelIdeal.Facts₀ Cert.KernelIdeal.Facts
open scoped BigOperators

theorem lhs_0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem lhs_1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem rhs_0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem rhs_1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl

/-- Entry (i, a) of the looked-up matrix against the transposed row sums. -/
theorem proc0_apply (mp : FVec Ideal S128x256 .f32) (idx : IVec S1024 32) (S : FVec Ideal S1024x1024 .f32)
    (i : Fin 128) (a : Fin 1024) :
    proc0 (F := Ideal) mp idx S (ix2 i a) = ∑ r : Fin 1024, takeCols (F := Ideal) mp idx (ix2 i r) * S (ix2 a r) := by
  unfold proc0
  generalize takeCols (F := Ideal) mp idx = M
  simp only [Host.dotGeneral]
  rw [Ideal.dotGeneral_apply, ← Equiv.sum_comp (ValueIdx.contrEquiv1 dot_S128x1024_S1024x1024_S128x1024_1_0_0_1_n_n 1024 rfl rfl).symm]
  refine Finset.sum_congr rfl fun k _ => ?_
  have hk := ValueIdx.contrEquiv1_symm_val dot_S128x1024_S1024x1024_S128x1024_1_0_0_1_n_n 1024 rfl rfl k
  have el : dot_S128x1024_S1024x1024_S128x1024_1_0_0_1_n_n.lhsIdx (ix2 i a) ((ValueIdx.contrEquiv1 dot_S128x1024_S1024x1024_S128x1024_1_0_0_1_n_n 1024 rfl rfl).symm k) = ix2 i k := funext fun b => Fin.ext (by
    match b with
    | ⟨0, _⟩ => exact lhs_0 _ _
    | ⟨1, _⟩ => exact (lhs_1 _ _).trans hk)
  have er : dot_S128x1024_S1024x1024_S128x1024_1_0_0_1_n_n.rhsIdx (ix2 i a) ((ValueIdx.contrEquiv1 dot_S128x1024_S1024x1024_S128x1024_1_0_0_1_n_n 1024 rfl rfl).symm k) = ix2 k a := funext fun b => Fin.ext (by
    match b with
    | ⟨0, _⟩ => exact (rhs_0 _ _).trans hk
    | ⟨1, _⟩ => exact rhs_1 _ _)
  rw [el, er]
  refine congrArg (M (ix2 i k) * ·) ?_
  exact transpose_apply [1, 0] S transposes_S1024x1024_S1024x1024_1_0 (ix2 k a) (ix2 a k) (fun b => match b with
    | ⟨0, _⟩ => rfl
    | ⟨1, _⟩ => rfl)

end Cert.KernelIdeal.Proc0Read

end
-- ==== Proof.RefRead.lean ====
/- The reference program's stages read at an index, at the ideal instance.

   Its row sums and column sums are plain sums (the initial value is zero). Its first prediction, at (i, a), is the sum
   over the 256 segments s of the table's entry (i, s) times the segment total: the scatter-add from a zero matrix
   puts in row s, column a, the sum of the transposed row sums' rows e whose id names segment s (an id outside
   [0, 256) names none and its row is dropped); the two transposes after it undo each other. -/
import proofs.«426334_j31190052503810_2_alg».proof.Proof.Gen.ReferenceIdeal.Read
import proofs.«426334_j31190052503810_2_alg».proof.Proof.LibScatterGather

noncomputable section

namespace Cert.ReferenceIdeal.RefRead

open Cert.ReferenceIdeal Cert.ReferenceIdeal.Gen Cert.ReferenceIdeal.Read
open Cert.ReferenceIdeal.Facts₀ Cert.ReferenceIdeal.Facts
open Idealize.ShloMosaic Idealize.ShloMosaic.ValueIdx Cert.ScatterGather
open scoped BigOperators

/-- The zero word is the number zero. -/
theorem zero_word : (FloatOps.ofBits (F := Ideal) .f32 0x00000000#32 : EReal) = 0 := Ideal.ofBits_zero_f32

/-- The row sums at (a, r): the sum over the last axis. -/
theorem v0_apply (x0 : (⟨S1024x1024x32, .f32⟩ : BufTy).Contents (Elt Ideal)) (a r : Fin 1024) :
    val_main_v0 (F := Ideal) x0 (ix2 a r) = ∑ k : Fin 32, x0 (ix3 a r k) := by
  rw [val_main_v0_apply, val_main_cst_apply, zero_word, zero_add]
  refine Finset.sum_congr rfl fun k _ => congrArg x0 ?_
  funext b
  apply Fin.ext
  match b with
  | ⟨0, _⟩ => rfl
  | ⟨1, _⟩ => rfl
  | ⟨2, _⟩ => rfl

/-- The column sums at (n, d): the sum over the middle axis. -/
theorem v12_apply (x1 : (⟨S2048x512x64, .f32⟩ : BufTy).Contents (Elt Ideal)) (n : Fin 2048) (d : Fin 64) :
    val_main_v12 (F := Ideal) x1 (ix2 n d) = ∑ k : Fin 512, x1 (ix3 n k d) := by
  rw [val_main_v12_apply, val_main_cst_3_apply, zero_word, zero_add]
  refine Finset.sum_congr rfl fun k _ => congrArg x1 ?_
  funext b
  apply Fin.ext
  match b with
  | ⟨0, _⟩ => rfl
  | ⟨1, _⟩ => rfl
  | ⟨2, _⟩ => rfl

/-- The transposed row sums at (e, a): the row sums at (a, e). -/
theorem v1_apply (x0 : (⟨S1024x1024x32, .f32⟩ : BufTy).Contents (Elt Ideal)) (e a : Fin 1024) :
    val_main_v1 (F := Ideal) x0 (ix2 e a) = ∑ k : Fin 32, x0 (ix3 a e k) := by
  rw [val_main_v1_apply]
  have hi : idx_main_v1 (ix2 e a) = ix2 a e := funext fun b => Fin.ext (by
    match b with
    | ⟨0, _⟩ => rfl
    | ⟨1, _⟩ => rfl)
  rw [hi, v0_apply]

/-- The column of ids at row e is id e. -/
theorem v3_apply (x5 : (⟨S1024, .i32⟩ : BufTy).Contents (Elt Ideal)) (e : Fin 1024) :
    val_main_v3 (F := Ideal) x5 (ix2 e 0) = x5 (ix1 e) := by
  rw [val_main_v3_apply]
  exact congrArg x5 (funext fun b => Fin.ext (by
    match b with
    | ⟨0, _⟩ => rfl))

/-- The segment totals at (s, a): the sum of the row sums (a, e) over the rows e whose id names segment s. -/
theorem v4_apply (x0 : (⟨S1024x1024x32, .f32⟩ : BufTy).Contents (Elt Ideal)) (x5 : (⟨S1024, .i32⟩ : BufTy).Contents (Elt Ideal))
    (s : Fin 256) (a : Fin 1024) :
    val_main_v4 (F := Ideal) x0 x5 (ix2 s a)
      = ∑ e ∈ Finset.univ.filter (fun e : Fin 1024 => tgtW 256 (x5 (ix1 e)) = some s), ∑ k : Fin 32, x0 (ix3 a e k) := by
  unfold val_main_v4
  simp only [Host.scatterAdd, Ideal.hostScatterAdd_def]
  rw [scatterAdd_rows_apply (N := 256) (H := 1024) (E := 1024) scatter_S256x1024_S1024x1_S1024x1024_1_0_0_1 rfl rfl rfl rfl
    (val_main_v2 (F := Ideal)) (val_main_v3 (F := Ideal) x5) (val_main_v1 (F := Ideal) x0) s a]
  rw [val_main_v2_apply, val_main_cst_0_apply, zero_word, zero_add]
  simp only [v3_apply, v1_apply]

/-- The first prediction at (i, a): the table's row i against the segment totals' column a. -/
theorem v7_apply (x0 : (⟨S1024x1024x32, .f32⟩ : BufTy).Contents (Elt Ideal)) (x4 : (⟨S128x256, .f32⟩ : BufTy).Contents (Elt Ideal))
    (x5 : (⟨S1024, .i32⟩ : BufTy).Contents (Elt Ideal)) (i : Fin 128) (a : Fin 1024) :
    val_main_v7 (F := Ideal) x0 x4 x5 (ix2 i a)
      = ∑ s : Fin 256, x4 (ix2 i s)
          * ∑ e ∈ Finset.univ.filter (fun e : Fin 1024 => tgtW 256 (x5 (ix1 e)) = some s), ∑ k : Fin 32, x0 (ix3 a e k) := by
  rw [val_main_v7_apply]
  refine Finset.sum_congr rfl fun s _ => ?_
  have hl : lidx_main_v7 (ix2 i a) s = ix2 i s := funext fun b => Fin.ext (by
    match b with
    | ⟨0, _⟩ => rfl
    | ⟨1, _⟩ => rfl)
  have hr : idx_main_v5 (idx_main_v6 (ridx_main_v7 (ix2 i a) s)) = ix2 s a := funext fun b => Fin.ext (by
    match b with
    | ⟨0, _⟩ => rfl
    | ⟨1, _⟩ => rfl)
  rw [hl, val_main_v6_apply, val_main_v5_apply, hr, v4_apply]

end Cert.ReferenceIdeal.RefRead

end
-- ==== Proof.SegmentDot.lean ====
/- The law that joins the two programs.

   Summing the rows of a table into the segments their ids name and then contracting the segment totals with a row of
   weights is the same as contracting the table's rows directly with the weights gathered at the rows' ids:

     ∑ s, w s · (∑ over the rows e with id e = s, x e)  =  ∑ r, w (id r) · x r.

   It moves a factor across a sum, so it is proved over the reals and carried to the extended reals only for
   finite entries (products and sums of coerced reals are coerced reals). -/
import Idealize.ShloMosaic.PureOps.Ideal

noncomputable section

namespace Cert.SegmentDot

open scoped BigOperators

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The segment-sum law over the reals. -/
theorem seg_dot_real {N E : ℕ} (w : Fin N → ℝ) (x : Fin E → ℝ) (id : Fin E → Fin N) :
    ∑ s, w s * ∑ e ∈ Finset.univ.filter (fun e => id e = s), x e = ∑ r, w (id r) * x r := by
  calc ∑ s, w s * ∑ e ∈ Finset.univ.filter (fun e => id e = s), x e
      = ∑ s, ∑ e, (if id e = s then w s * x e else 0) := by
        refine Finset.sum_congr rfl fun s _ => ?_
        rw [Finset.sum_filter, Finset.mul_sum]
        refine Finset.sum_congr rfl fun e _ => ?_
        split_ifs <;> simp
    _ = ∑ e, ∑ s, (if id e = s then w s * x e else 0) := Finset.sum_comm
    _ = ∑ r, w (id r) * x r := by
        refine Finset.sum_congr rfl fun e _ => ?_
        rw [Finset.sum_ite_eq Finset.univ (id e) (fun s => w s * x e)]
        simp

/-- The same law on the extended reals, for finite weights and finite table entries. -/
theorem seg_dot {N E : ℕ} (w : Fin N → ℝ) (x : Fin E → ℝ) (id : Fin E → Fin N) :
    ∑ s, (w s : EReal) * ∑ e ∈ Finset.univ.filter (fun e => id e = s), (x e : EReal)
      = ∑ r, (w (id r) : EReal) * (x r : EReal) := by
  simp_rw [← coe_sum, ← EReal.coe_mul]
  rw [← coe_sum, ← coe_sum, seg_dot_real]

end Cert.SegmentDot

end
-- ==== Proof.Bridge.lean ====
/- The two programs compute one function.

   Both end with the same arithmetic on two predictions: half the squared error of the first plus 0.45 (as f32) times
   the squared error of the second. The second predictions are the same column sums. The first predictions agree
   entry by entry by the segment-sum law: the reference contracts the table's row with the segment totals, the kernel
   contracts the looked-up columns with the row sums, and for ids in [0, 256) the segment an id names and the column the
   lookup reads are the same. The law needs finite table entries and finite row sums, which the precondition gives. -/
import proofs.«426334_j31190052503810_2_alg».proof.Proof.TailDefs
import proofs.«426334_j31190052503810_2_alg».proof.Proof.TakeRead
import proofs.«426334_j31190052503810_2_alg».proof.Proof.Proc0Read
import proofs.«426334_j31190052503810_2_alg».proof.Proof.RefRead
import proofs.«426334_j31190052503810_2_alg».proof.Proof.RowSums
import proofs.«426334_j31190052503810_2_alg».proof.Proof.ColSums
import proofs.«426334_j31190052503810_2_alg».proof.Proof.SegmentDot

noncomputable section

namespace Cert.Bridge

open Idealize.ShloMosaic Idealize.ShloMosaic.ValueIdx Cert.ScatterGather
open scoped BigOperators

/-- An id in range names, for the scatter, the segment the lookup reads as a column. -/
theorem tgtW_of_range {N : Nat} (hN : 0 < N) {w : Nat} (x : BitVec w) (h : 0 ≤ x.toInt ∧ x.toInt < (N : Int)) :
    tgtW N x = some (rowW N hN x) := by
  unfold tgtW rowW
  rw [dif_pos h]
  congr 1
  apply Fin.ext
  show x.toInt.toNat = min x.toInt.toNat (N - 1)
  omega

/-- The second predictions: the kernel's column sums are the reference's. -/
theorem proc1_eq (x1 : FVec Ideal Cert.KernelIdeal.S2048x512x64 .f32) :
    Cert.KernelIdeal.ColSums.colSum x1 = Cert.ReferenceIdeal.Read.val_main_v12 (F := Ideal) x1 := by
  funext j
  obtain ⟨n, d, rfl⟩ : ∃ (n : Fin 2048) (d : Fin 64), j = ix2 n d := ⟨j 0, j 1, eq_ix2 j⟩
  rw [Cert.ReferenceIdeal.RefRead.v12_apply]
  rfl

/-- The first predictions agree, for finite first argument and table and ids in range. -/
theorem proc0_eq (x0 : FVec Ideal Cert.KernelIdeal.S1024x1024x32 .f32) (x4 : FVec Ideal Cert.KernelIdeal.S128x256 .f32)
    (x5 : IVec Cert.KernelIdeal.S1024 32)
    (hfin0 : ∀ j, ∃ r : ℝ, x0 j = (r : EReal)) (hfin4 : ∀ j, ∃ r : ℝ, x4 j = (r : EReal))
    (hidx : ∀ e : Fin 1024, 0 ≤ (x5 (ix1 e)).toInt ∧ (x5 (ix1 e)).toInt < 256) :
    Cert.KernelIdeal.Tail.proc0 (F := Ideal) x4 x5 (Cert.KernelIdeal.RowSums.rowSum x0)
      = Cert.ReferenceIdeal.Read.val_main_v7 (F := Ideal) x0 x4 x5 := by
  funext j
  obtain ⟨i, a, rfl⟩ : ∃ (i : Fin 128) (a : Fin 1024), j = ix2 i a := ⟨j 0, j 1, eq_ix2 j⟩
  rw [Cert.KernelIdeal.Proc0Read.proc0_apply, Cert.ReferenceIdeal.RefRead.v7_apply]
  choose f0 hf0 using hfin0
  choose f4 hf4 using hfin4
  have hx0 : ∀ (a e : Fin 1024), ∑ k : Fin 32, x0 (ix3 a e k) = ((∑ k : Fin 32, f0 (ix3 a e k) : ℝ) : EReal) := fun a e => by
    rw [Cert.SegmentDot.coe_sum]
    exact Finset.sum_congr rfl fun k _ => hf0 _
  have htg : ∀ e : Fin 1024, tgtW 256 (x5 (ix1 e)) = some (rowW 256 (by decide) (x5 (ix1 e))) := fun e =>
    tgtW_of_range (by decide) _ (by have := hidx e; omega)
  calc ∑ r : Fin 1024, Cert.KernelIdeal.Tail.takeCols (F := Ideal) x4 x5 (ix2 i r) * Cert.KernelIdeal.RowSums.rowSum x0 (ix2 a r)
      = ∑ r : Fin 1024, ((f4 (ix2 i (rowW 256 (by decide) (x5 (ix1 r)))) : ℝ) : EReal) * ((∑ k : Fin 32, f0 (ix3 a r k) : ℝ) : EReal) := by
        refine Finset.sum_congr rfl fun r _ => ?_
        rw [Cert.KernelIdeal.TakeRead.takeCols_apply x5 hidx x4 i r, hf4]
        exact congrArg (_ * ·) (hx0 a r)
    _ = ∑ s : Fin 256, ((f4 (ix2 i s) : ℝ) : EReal)
          * ∑ e ∈ Finset.univ.filter (fun e : Fin 1024 => rowW 256 (by decide) (x5 (ix1 e)) = s), ((∑ k : Fin 32, f0 (ix3 a e k) : ℝ) : EReal) :=
        (Cert.SegmentDot.seg_dot (fun s => f4 (ix2 i s)) (fun e => ∑ k : Fin 32, f0 (ix3 a e k))
          (fun e => rowW 256 (by decide) (x5 (ix1 e)))).symm
    _ = ∑ s : Fin 256, x4 (ix2 i s)
          * ∑ e ∈ Finset.univ.filter (fun e : Fin 1024 => tgtW 256 (x5 (ix1 e)) = some s), ∑ k : Fin 32, x0 (ix3 a e k) := by
        refine Finset.sum_congr rfl fun s _ => ?_
        rw [hf4]
        refine congrArg (_ * ·) ?_
        rw [Finset.filter_congr (fun e _ => show (rowW 256 (by decide) (x5 (ix1 e)) = s) ↔ (tgtW 256 (x5 (ix1 e)) = some s) by
          rw [htg e]; exact Option.some_inj.symm)]
        exact Finset.sum_congr rfl fun e _ => (hx0 a e).symm

/-- The two results agree. -/
theorem result_eq (x0 : FVec Ideal Cert.KernelIdeal.S1024x1024x32 .f32) (x1 : FVec Ideal Cert.KernelIdeal.S2048x512x64 .f32)
    (x2 : FVec Ideal Cert.KernelIdeal.S128x1024 .f32) (x3 : FVec Ideal Cert.KernelIdeal.S2048x64 .f32)
    (x4 : FVec Ideal Cert.KernelIdeal.S128x256 .f32) (x5 : IVec Cert.KernelIdeal.S1024 32)
    (hfin0 : ∀ j, ∃ r : ℝ, x0 j = (r : EReal)) (hfin4 : ∀ j, ∃ r : ℝ, x4 j = (r : EReal))
    (hidx : ∀ e : Fin 1024, 0 ≤ (x5 (ix1 e)).toInt ∧ (x5 (ix1 e)).toInt < 256) :
    Cert.KernelIdeal.Tail.loss (F := Ideal) x2
        (Cert.KernelIdeal.Tail.proc0 (F := Ideal) x4 x5 (Cert.KernelIdeal.RowSums.rowSum x0)) x3
        (Cert.KernelIdeal.ColSums.colSum x1)
      = Cert.ReferenceIdeal.Read.val_main_v17 (F := Ideal) x0 x1 x2 x3 x4 x5 := by
  rw [proc0_eq x0 x4 x5 hfin0 hfin4 hidx, proc1_eq]
  rfl

end Cert.Bridge

end
-- ==== Proof.lean ====
/- The kernel against its reference, over the extended reals, for finite inputs and segment ids in [0, 256).

   Reference: row sums of the first argument, transposed, summed into 256 segments by the ids (a segment sum), the
   lookup table contracted with the segment totals; column sums of the second argument; then half the squared error
   of the first prediction plus 0.45 times the squared error of the second.
   Kernel: the row sums and the column sums by two pallas_calls (each block's sum written to its own output block, the
   blocks tiling the outputs); the table's columns looked up at the ids and contracted with the transposed row sums;
   the same closing arithmetic.
   The two first predictions agree by the segment-sum law
     ∑ s, w s · (∑ over the rows e with id e = s, x e) = ∑ r, w (id r) · x r,
   which moves a factor across a sum and so needs finite entries; outside [0, 256) the reference drops a row the
   kernel would still read (after wrapping a negative id), which is why the ids' range is part of the precondition.
   The frames of the two kernel programs are the generated ones; the reference's frame is its generated run with the
   result dropped; the ideal pass rewrote nothing, so `preserves` is trivial. -/
import proofs.«426334_j31190052503810_2_alg».proof.Defs
import proofs.«426334_j31190052503810_2_alg».proof.Proof.Gen.Kernel
import proofs.«426334_j31190052503810_2_alg».proof.Proof.Gen.Kernel.Skeleton
import proofs.«426334_j31190052503810_2_alg».proof.Proof.Gen.Kernel.Launch
import proofs.«426334_j31190052503810_2_alg».proof.Proof.Gen.Kernel.Points
import proofs.«426334_j31190052503810_2_alg».proof.Proof.Gen.Kernel.Frame
import proofs.«426334_j31190052503810_2_alg».proof.Proof.Gen.KernelIdeal
import proofs.«426334_j31190052503810_2_alg».proof.Proof.Gen.KernelIdeal.Skeleton
import proofs.«426334_j31190052503810_2_alg».proof.Proof.Gen.KernelIdeal.Launch
import proofs.«426334_j31190052503810_2_alg».proof.Proof.Gen.KernelIdeal.Points
import proofs.«426334_j31190052503810_2_alg».proof.Proof.Gen.KernelIdeal.Frame
import proofs.«426334_j31190052503810_2_alg».proof.Proof.Gen.ReferenceIdeal
import proofs.«426334_j31190052503810_2_alg».proof.Proof.Gen.Pre_finite_inputs
import proofs.«426334_j31190052503810_2_alg».proof.Proof.Gen.ReferenceIdeal.Run
import proofs.«426334_j31190052503810_2_alg».proof.Proof.Gen.ReferenceIdeal.Read
import proofs.«426334_j31190052503810_2_alg».proof.Proof.RunValue
import proofs.«426334_j31190052503810_2_alg».proof.Proof.HostTail
import proofs.«426334_j31190052503810_2_alg».proof.Proof.PreFacts
import proofs.«426334_j31190052503810_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the kernel's function of the arguments: the kernel by its run with the result
    named and the regions' outputs read as sums, the reference by its generated run and the bridge. -/
theorem algebraic : Cert.algebraic_KernelIdeal_ReferenceIdeal := by
  intro m ρ m' ρ' hpre hagree
  refine ⟨fun c => Cert.KernelIdeal.Tail.loss (F := Ideal) (m ((c.tc : Thread Cert.KernelIdeal.nD Cert.KernelIdeal.τ).loc Cert.KernelIdeal.main_arg2))
      (Cert.KernelIdeal.Tail.proc0 (F := Ideal) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (Cert.KernelIdeal.RowSums.rowSum (m ((c.tc : Thread Cert.KernelIdeal.nD Cert.KernelIdeal.τ).loc Cert.KernelIdeal.main_arg0))))
      (m ((c.tc : Thread Cert.KernelIdeal.nD Cert.KernelIdeal.τ).loc Cert.KernelIdeal.main_arg3)) (Cert.KernelIdeal.ColSums.colSum (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.HostTail.value m ρ c), (h c).2⟩)
      (Cert.KernelIdeal.RunValue.run_value m ρ)
  · refine (θ_run Cert.ReferenceIdeal.defs _ _).mono (fun _ h c => ⟨(h c).1.trans ?_, (h c).2⟩)
      (Cert.ReferenceIdeal.Value.run (F := Ideal) m' ρ')
    obtain ⟨h0, h4, h5⟩ := Cert.PreFacts.decode _ _ _ _ _ _ (hpre c)
    rw [Cert.ReferenceIdeal.Read.val_main_v17_eq, (hagree c).1, (hagree c).2.1, (hagree c).2.2.1, (hagree c).2.2.2.1,
      (hagree c).2.2.2.2.1, (hagree c).2.2.2.2.2]
    exact (Cert.Bridge.result_eq _ _ _ _ _ _ h0 h4 h5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
